-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)) (v2 : (c : Dev Cert.KernelIdeal.nD) → Buf (Elt Ideal) ((c.tc : Thread Cert.KernelIdeal.nD Cert.KernelIdeal.τ).loc Cert.KernelIdeal.main_v23_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_v23_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x248 : Shape := ⟨2, ![65536, 248]⟩
abbrev S4096 : Shape := ⟨1, ![4096]⟩
abbrev S_ : Shape := ⟨0, ![]⟩

class Facts : Prop where
  bcast_S_S65536x248 : S_.BroadcastsInDim S65536x248 (![] : Fin 0 → Fin S65536x248.rank)
  reducesTo_S65536x248_S_d0_1 : S65536x248.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part2 {F : FTy → Type} [FloatOps F] (main_v29 : IVec S_ 1) (main_v31 : IVec S4096 1) (main_c_13 : IVec S_ 1) : IVec S_ 1 :=
  let main_v32 : IVec S_ 1 := (fun x v => Host.reduce IntOp.andi x v reducesTo_S4096_S_d0 h_S_) main_v31 main_c_13
  let main_v33 : IVec S_ 1 := andi main_v29 main_v32
  main_v33

def fn_part1 {F : FTy → Type} [FloatOps F] (main_arg2 : IVec S4096 32) (main_arg3 : IVec S4096 32) (main_arg4 : IVec S4096 32) (main_v13 : IVec S_ 1) (main_v15 : IVec S4096 1) (main_c_5 : IVec S_ 1) : IVec S_ 1 :=
  let main_v16 : IVec S_ 1 := (fun x v => Host.reduce IntOp.andi x v reducesTo_S4096_S_d0 h_S_) main_v15 main_c_5
  let main_v17 : IVec S_ 1 := andi main_v13 main_v16
  let main_c_6 : IVec S_ 32 := constantI S_ 32 248#32
  let main_v18 : IVec S4096 32 := broadcastInDim S4096 ![] bcast_S_S4096 main_c_6
  let main_v19 : IVec S4096 1 := cmpi .slt main_arg2 main_v18
  let main_c_7 : IVec S_ 1 := constantI S_ 1 1#1
  let main_v20 : IVec S_ 1 := (fun x v => Host.reduce IntOp.andi x v reducesTo_S4096_S_d0 h_S_) main_v19 main_c_7
  let main_v21 : IVec S_ 1 := andi main_v17 main_v20
  let main_c_8 : IVec S_ 32 := constantI S_ 32 0#32
  let main_v22 : IVec S4096 32 := broadcastInDim S4096 ![] bcast_S_S4096 main_c_8
  let main_v23 : IVec S4096 1 := cmpi .sge main_arg3 main_v22
  let main_c_9 : IVec S_ 1 := constantI S_ 1 1#1
  let main_v24 : IVec S_ 1 := (fun x v => Host.reduce IntOp.andi x v reducesTo_S4096_S_d0 h_S_) main_v23 main_c_9
  let main_v25 : IVec S_ 1 := andi main_v21 main_v24
  let main_c_10 : IVec S_ 32 := constantI S_ 32 248#32
  let main_v26 : IVec S4096 32 := broadcastInDim S4096 ![] bcast_S_S4096 main_c_10
  let main_v27 : IVec S4096 1 := cmpi .slt main_arg3 main_v26
  let main_c_11 : IVec S_ 1 := constantI S_ 1 1#1
  let main_v28 : IVec S_ 1 := (fun x v => Host.reduce IntOp.andi x v reducesTo_S4096_S_d0 h_S_) main_v27 main_c_11
  let main_v29 : IVec S_ 1 := andi main_v25 main_v28
  let main_c_12 : IVec S_ 32 := constantI S_ 32 0#32
  let main_v30 : IVec S4096 32 := broadcastInDim S4096 ![] bcast_S_S4096 main_c_12
  let main_v31 : IVec S4096 1 := cmpi .sge main_arg4 main_v30
  let main_c_13 : IVec S_ 1 := constantI S_ 1 1#1
  fn_part2 (F := F) main_v29 main_v31 main_c_13

def fn {F : FTy → Type} [FloatOps F] (main_arg0 : FVec F S65536x248 .f32) (main_arg1 : FVec F S65536x248 .f32) (main_arg2 : IVec S4096 32) (main_arg3 : IVec S4096 32) (main_arg4 : IVec S4096 32) (main_arg5 : FVec F S4096 .f32) : IVec S_ 1 :=
  let main_v0 : FVec F S65536x248 .f32 := Host.absf main_arg0
  let main_cst : FVec F S_ .f32 := constant S_ .f32 0x7F800000#32
  let main_v1 : FVec F S65536x248 .f32 := broadcastInDim S65536x248 ![] bcast_S_S65536x248 main_cst
  let main_v2 : IVec S65536x248 1 := cmpf .olt main_v0 main_v1
  let main_c : IVec S_ 1 := constantI S_ 1 1#1
  let main_v3 : IVec S_ 1 := (fun x v => Host.reduce IntOp.andi x v reducesTo_S65536x248_S_d0_1 h_S_) main_v2 main_c
  let main_v4 : FVec F S65536x248 .f32 := Host.absf main_arg1
  let main_cst_0 : FVec F S_ .f32 := constant S_ .f32 0x7F800000#32
  let main_v5 : FVec F S65536x248 .f32 := broadcastInDim S65536x248 ![] bcast_S_S65536x248 main_cst_0
  let main_v6 : IVec S65536x248 1 := cmpf .olt main_v4 main_v5
  let main_c_1 : IVec S_ 1 := constantI S_ 1 1#1
  let main_v7 : IVec S_ 1 := (fun x v => Host.reduce IntOp.andi x v reducesTo_S65536x248_S_d0_1 h_S_) main_v6 main_c_1
  let main_v8 : IVec S_ 1 := andi main_v3 main_v7
  let main_v9 : FVec F S4096 .f32 := Host.absf main_arg5
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_c_4 : IVec S_ 32 := constantI S_ 32 0#32
  let main_v14 : IVec S4096 32 := broadcastInDim S4096 ![] bcast_S_S4096 main_c_4
  let main_v15 : IVec S4096 1 := cmpi .sge main_arg2 main_v14
  let main_c_5 : IVec S_ 1 := constantI S_ 1 1#1
  fn_part1 (F := F) main_arg2 main_arg3 main_arg4 main_v13 main_v15 main_c_5
-- ==== Kernel.lean ====
abbrev S65536x248 : Shape := ⟨2, ![65536, 248]⟩
abbrev S4096 : Shape := ⟨1, ![4096]⟩
abbrev S248 : Shape := ⟨1, ![248]⟩
abbrev S248x1 : Shape := ⟨2, ![248, 1]⟩
abbrev S1x4096 : Shape := ⟨2, ![1, 4096]⟩
abbrev S248x4096 : Shape := ⟨2, ![248, 4096]⟩
abbrev S4096x1 : Shape := ⟨2, ![4096, 1]⟩
abbrev S1x248 : Shape := ⟨2, ![1, 248]⟩
abbrev S4096x248 : Shape := ⟨2, ![4096, 248]⟩
abbrev S65536x1 : Shape := ⟨2, ![65536, 1]⟩
abbrev S1024x248 : Shape := ⟨2, ![1024, 248]⟩
abbrev S1024x1 : Shape := ⟨2, ![1024, 1]⟩
abbrev S248x1024 : Shape := ⟨2, ![248, 1024]⟩
abbrev S1024x1024 : Shape := ⟨2, ![1024, 1024]⟩
abbrev S1024 : Shape := ⟨1, ![1024]⟩

abbrev nBuf : Space → Nat
  | .hbm => 32
  | .vmem => 13
  | .smem => 0
  | _ => 0

abbrev bufTy : (tb : Table) → Fin (tcTables nBuf tb) → BufTy
  | .hbm, ⟨0, _⟩ => ⟨S65536x248, .f32⟩
  | .hbm, ⟨1, _⟩ => ⟨S65536x248, .f32⟩
  | .hbm, ⟨2, _⟩ => ⟨S4096, .i32⟩
  | .hbm, ⟨3, _⟩ => ⟨S4096, .i32⟩
  | .hbm, ⟨4, _⟩ => ⟨S4096, .i32⟩
  | .hbm, ⟨5, _⟩ => ⟨S4096, .f32⟩
  | .hbm, ⟨6, _⟩ => ⟨S248, .i32⟩
  | .hbm, ⟨7, _⟩ => ⟨S248x1, .i32⟩
  | .hbm, ⟨8, _⟩ => ⟨S1x4096, .i32⟩
  | .hbm, ⟨9, _⟩ => ⟨S248x4096, .i32⟩
  | .hbm, ⟨10, _⟩ => ⟨S248x4096, .i32⟩
  | .hbm, ⟨11, _⟩ => ⟨S248x4096, .i1⟩
  | .hbm, ⟨12, _⟩ => ⟨S248x4096, .bf16⟩
  | .hbm, ⟨13, _⟩ => ⟨S248x1, .i32⟩
  | .hbm, ⟨14, _⟩ => ⟨S1x4096, .i32⟩
  | .hbm, ⟨15, _⟩ => ⟨S248x4096, .i32⟩
  | .hbm, ⟨16, _⟩ => ⟨S248x4096, .i32⟩
  | .hbm, ⟨17, _⟩ => ⟨S248x4096, .i1⟩
  | .hbm, ⟨18, _⟩ => ⟨S248x4096, .bf16⟩
  | .hbm, ⟨19, _⟩ => ⟨S4096x1, .i32⟩
  | .hbm, ⟨20, _⟩ => ⟨S1x248, .i32⟩
  | .hbm, ⟨21, _⟩ => ⟨S4096x248, .i32⟩
  | .hbm, ⟨22, _⟩ => ⟨S4096x248, .i32⟩
  | .hbm, ⟨23, _⟩ => ⟨S4096x248, .i1⟩
  | .hbm, ⟨24, _⟩ => ⟨S4096x248, .f32⟩
  | .hbm, ⟨25, _⟩ => ⟨S4096x1, .f32⟩
  | .hbm, ⟨26, _⟩ => ⟨S4096x248, .f32⟩
  | .hbm, ⟨27, _⟩ => ⟨S4096x248, .f32⟩
  | .hbm, ⟨28, _⟩ => ⟨S4096x248, .bf16⟩
  | .hbm, ⟨29, _⟩ => ⟨S65536x248, .f32⟩
  | .hbm, ⟨30, _⟩ => ⟨S65536x248, .f32⟩
  | .hbm, ⟨31, _⟩ => ⟨S65536x1, .f32⟩
  | .local _ .vmem, ⟨0, _⟩ => ⟨S1024x248, .f32⟩
  | .local _ .vmem, ⟨1, _⟩ => ⟨S1024x248, .f32⟩
  | .local _ .vmem, ⟨2, _⟩ => ⟨S1024x248, .f32⟩
  | .local _ .vmem, ⟨3, _⟩ => ⟨S1024x248, .f32⟩
  | .local _ .vmem, ⟨4, _⟩ => ⟨S248x4096, .bf16⟩
  | .local _ .vmem, ⟨5, _⟩ => ⟨S248x4096, .bf16⟩
  | .local _ .vmem, ⟨6, _⟩ => ⟨S4096x248, .bf16⟩
  | .local _ .vmem, ⟨7, _⟩ => ⟨S1024x248, .f32⟩
  | .local _ .vmem, ⟨8, _⟩ => ⟨S1024x248, .f32⟩
  | .local _ .vmem, ⟨9, _⟩ => ⟨S1024x248, .f32⟩
  | .local _ .vmem, ⟨10, _⟩ => ⟨S1024x248, .f32⟩
  | .local _ .vmem, ⟨11, _⟩ => ⟨S1024x1, .f32⟩
  | .local _ .vmem, ⟨12, _⟩ => ⟨S1024x1, .f32⟩
  | _, _ => ⟨S65536x248, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23_0 : Ref sig .tc := ⟨.hbm, 29, rfl⟩
abbrev main_v23_1 : Ref sig .tc := ⟨.hbm, 30, rfl⟩
abbrev main_v23_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c4_i32 : BitVec 32 := 4#32
  let v5 : BitVec 32 := Scalar.addi c0_i32 c4_i32
  let c1_i32 : BitVec 32 := 1#32
  ⟨c0_i32, v5, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c1024_i32 : BitVec 32 := 1024#32
  let v13 : BitVec 32 := Scalar.muli arg9 c1024_i32
  v13
def k0_off1 (k0_t1 : Fin k0_t1_loop.trips) : Fin 2 → Nat :=
  let c0_11 : Index := 0#32
  let c0_i32 : BitVec 32 := 0#32
  let c1_i32 : BitVec 32 := 1#32
  let arg9 : BitVec 32 := Scf.iv c0_i32 c1_i32 k0_t1
  let c1024_i32 : BitVec 32 := 1024#32
  let v13 : BitVec 32 := Scalar.muli arg9 c1024_i32
  let v14 : BitVec 32 := v13
  let v15 : Index := Scalar.indexCast v14
  ![0, v15.toNat]
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c1024_i32 : BitVec 32 := 1024#32
  let v13 : BitVec 32 := Scalar.muli arg9 c1024_i32
  let v14 : BitVec 32 := v13
  let v21 : Index := Scalar.indexCast v14
  let c0_13 : Index := 0#32
  ![v21.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x248 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x248 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S248x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S248x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x248 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x248 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x248 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S248_S248x1_0 : S248.BroadcastsInDim S248x1 (![0] : Fin 1 → Fin S248x1.rank)
  bcast_S4096_S1x4096_1 : S4096.BroadcastsInDim S1x4096 (![1] : Fin 1 → Fin S1x4096.rank)
  bcast_S248x1_S248x4096_0_1 : S248x1.BroadcastsInDim S248x4096 (![0, 1] : Fin 2 → Fin S248x4096.rank)
  bcast_S1x4096_S248x4096_0_1 : S1x4096.BroadcastsInDim S248x4096 (![0, 1] : Fin 2 → Fin S248x4096.rank)
  bcast_S4096_S4096x1_0 : S4096.BroadcastsInDim S4096x1 (![0] : Fin 1 → Fin S4096x1.rank)
  bcast_S248_S1x248_1 : S248.BroadcastsInDim S1x248 (![1] : Fin 1 → Fin S1x248.rank)
  bcast_S4096x1_S4096x248_0_1 : S4096x1.BroadcastsInDim S4096x248 (![0, 1] : Fin 2 → Fin S4096x248.rank)
  bcast_S1x248_S4096x248_0_1 : S1x248.BroadcastsInDim S4096x248 (![0, 1] : Fin 2 → Fin S4096x248.rank)
  bitsLt_bf16_f32 : FTy.bits .bf16 < FTy.bits .f32
  inb_S1024x248_S1024x248_0_0 : ∀ a, (![0, 0] : Fin 2 → Nat) a + S1024x248.size a ≤ S1024x248.size a
  h_S1024x248 : 0 < S1024x248.numel
  h_S248x1024 : 0 < S248x1024.numel
  shapeCasts_S248x1024_S248x1024 : S248x1024.ShapeCasts S248x1024
  shapeCasts_S1024x248_S1024x248 : S1024x248.ShapeCasts S1024x248
  reduces_S1024x248_S1024 : S1024x248.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  dot_S1024x248_S248x1024_S1024x1024_1_0_0_1_n_n_wf : DotDims.WF S1024x248 S248x1024 S1024x1024 [1] [0] [0] [1] [] []
  dot_S1024x1024_S1024x248_S1024x248_1_0_0_1_n_n_wf : DotDims.WF S1024x1024 S1024x248 S1024x248 [1] [0] [0] [1] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S248x1024.size a ≤ S248x4096.size a
  k0_off2_inb : ∀ k0_t1 : Fin k0_t1_loop.trips, ∀ a, (k0_off2 k0_t1) a + S1024x248.size a ≤ S4096x248.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x248.size a ≤ S65536x248.size a
  hwx0_0 : ∀ i : grid0.Coords, EltTy.bits .f32 = 32 ∨ (Rect.block (s := S65536x248) S1024x248.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x248.size a ≤ S65536x248.size a
  hwx0_1 : ∀ i : grid0.Coords, EltTy.bits .f32 = 32 ∨ (Rect.block (s := S65536x248) S1024x248.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S248x4096.size a ≤ S248x4096.size a
  hwx0_2 : ∀ i : grid0.Coords, EltTy.bits .bf16 = 32 ∨ (Rect.block (s := S248x4096) S248x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S248x4096.size a ≤ S248x4096.size a
  hwx0_3 : ∀ i : grid0.Coords, EltTy.bits .bf16 = 32 ∨ (Rect.block (s := S248x4096) S248x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x248.size a ≤ S4096x248.size a
  hwx0_4 : ∀ i : grid0.Coords, EltTy.bits .bf16 = 32 ∨ (Rect.block (s := S4096x248) S4096x248.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x248.size a ≤ S65536x248.size a
  hwx0_5 : ∀ i : grid0.Coords, EltTy.bits .f32 = 32 ∨ (Rect.block (s := S65536x248) S1024x248.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x248.size a ≤ S65536x248.size a
  hwx0_6 : ∀ i : grid0.Coords, EltTy.bits .f32 = 32 ∨ (Rect.block (s := S65536x248) S1024x248.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S65536x1.size a
  hwx0_7 : ∀ i : grid0.Coords, EltTy.bits .f32 = 32 ∨ (Rect.block (s := S65536x1) S1024x1.size (cc0_transform_7 i) (hinb0_7 i)).WholeWords (EltTy.packing .f32)

variable [Facts₀]

def dot_S1024x248_S248x1024_S1024x1024_1_0_0_1_n_n : DotDims S1024x248 S248x1024 S1024x1024 where
  lhsContracting := [1]
  rhsContracting := [0]
  lhsNonContracting := [0]
  rhsNonContracting := [1]
  lhsBatch := []
  rhsBatch := []
  wf := dot_S1024x248_S248x1024_S1024x1024_1_0_0_1_n_n_wf
def dot_S1024x1024_S1024x248_S1024x248_1_0_0_1_n_n : DotDims S1024x1024 S1024x248 S1024x248 where
  lhsContracting := [1]
  rhsContracting := [0]
  lhsNonContracting := [0]
  rhsNonContracting := [1]
  lhsBatch := []
  rhsBatch := []
  wf := dot_S1024x1024_S1024x248_S1024x248_1_0_0_1_n_n_wf

abbrev win0_0 : Pipeline.Window sig grid0 :=
  Pipeline.Window.ofSpec (Memref.whole main_arg0) S1024x248.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x248.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S248x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S248x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S4096x248.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23_0) S1024x248.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v23_1) S1024x248.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v23_2) S1024x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S65536x248 : Shape := ⟨2, ![65536, 248]⟩
abbrev S4096 : Shape := ⟨1, ![4096]⟩
abbrev S_ : Shape := ⟨0, ![]⟩
abbrev S4096x1 : Shape := ⟨2, ![4096, 1]⟩
abbrev S65536x4096 : Shape := ⟨2, ![65536, 4096]⟩
abbrev S1x4096 : Shape := ⟨2, ![1, 4096]⟩
abbrev S65536 : Shape := ⟨1, ![65536]⟩
abbrev S65536x1 : Shape := ⟨2, ![65536, 1]⟩

abbrev nBuf : Space → Nat
  | .hbm => 43
  | .vmem => 0
  | .smem => 0
  | _ => 0

abbrev bufTy : (tb : Table) → Fin (tcTables nBuf tb) → BufTy
  | .hbm, ⟨0, _⟩ => ⟨S65536x248, .f32⟩
  | .hbm, ⟨1, _⟩ => ⟨S65536x248, .f32⟩
  | .hbm, ⟨2, _⟩ => ⟨S4096, .i32⟩
  | .hbm, ⟨3, _⟩ => ⟨S4096, .i32⟩
  | .hbm, ⟨4, _⟩ => ⟨S4096, .i32⟩
  | .hbm, ⟨5, _⟩ => ⟨S4096, .f32⟩
  | .hbm, ⟨6, _⟩ => ⟨S_, .i32⟩
  | .hbm, ⟨7, _⟩ => ⟨S4096, .i32⟩
  | .hbm, ⟨8, _⟩ => ⟨S4096, .i1⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S4096x1, .i32⟩
  | .hbm, ⟨14, _⟩ => ⟨S65536x4096, .f32⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .i32⟩
  | .hbm, ⟨22, _⟩ => ⟨S4096x1, .i32⟩
  | .hbm, ⟨23, _⟩ => ⟨S65536x4096, .f32⟩
  | .hbm, ⟨24, _⟩ => ⟨S65536x4096, .f32⟩
  | .hbm, ⟨25, _⟩ => ⟨S1x4096, .f32⟩
  | .hbm, ⟨26, _⟩ => ⟨S65536x4096, .f32⟩
  | .hbm, ⟨27, _⟩ => ⟨S65536x4096, .f32⟩
  | .hbm, ⟨28, _⟩ => ⟨S_, .f32⟩
  | .hbm, ⟨29, _⟩ => ⟨S65536x248, .f32⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .i32⟩
  | .hbm, ⟨37, _⟩ => ⟨S4096x1, .i32⟩
  | .hbm, ⟨38, _⟩ => ⟨S65536x248, .f32⟩
  | .hbm, ⟨39, _⟩ => ⟨S65536x248, .f32⟩
  | .hbm, ⟨40, _⟩ => ⟨S_, .f32⟩
  | .hbm, ⟨41, _⟩ => ⟨S65536, .f32⟩
  | .hbm, ⟨42, _⟩ => ⟨S65536x1, .f32⟩
  | _, _ => ⟨S65536x248, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S1x4096_S65536x4096_0_1 : S1x4096.BroadcastsInDim S65536x4096 (![0, 1] : Fin 2 → Fin S65536x4096.rank)
  bcast_S_S65536x248 : S_.BroadcastsInDim S65536x248 (![] : Fin 0 → Fin S65536x248.rank)
  reducesTo_S65536x248_S65536_d1 : S65536x248.ReducesTo [1] S65536
  h_S_ : 0 < S_.numel
  bcast_S65536_S65536x1_0 : S65536.BroadcastsInDim S65536x1 (![0] : Fin 1 → Fin S65536x1.rank)
  gather_S65536x248_S4096x1_S65536x4096_0_1_n_n_1_1_655361_wf : GatherDims.WF S65536x248 S4096x1 S65536x4096 [0] [1] [] [1] [] 1 ![65536, 1]
  scatter_S65536x248_S4096x1_S65536x4096_0_1_1_1_wf : ScatterDims.WF S65536x248 S4096x1 S65536x4096 [0] [1] [1] 1

variable [Facts₀]

def gather_S65536x248_S4096x1_S65536x4096_0_1_n_n_1_1_655361 : GatherDims S65536x248 S4096x1 S65536x4096 where
  offsetDims := [0]
  collapsedSliceDims := [1]
  operandBatchingDims := []
  startIndicesBatchingDims := []
  startIndexMap := [1]
  indexVectorDim := 1
  sliceSizes := ![65536, 1]
  wf := gather_S65536x248_S4096x1_S65536x4096_0_1_n_n_1_1_655361_wf
def scatter_S65536x248_S4096x1_S65536x4096_0_1_1_1 : ScatterDims S65536x248 S4096x1 S65536x4096 where
  updateWindowDims := [0]
  insertedWindowDims := [1]
  scatterDimsToOperandDims := [1]
  indexVectorDim := 1
  wf := scatter_S65536x248_S4096x1_S65536x4096_0_1_1_1_wf

class Facts : Prop extends Facts₀ where

variable [Facts]
-- ==== Proof.PreDecode.lean ====
/-
  The precondition read: beside the finiteness of the float inputs it says that every word of I and of J is a column
  number, 0 ≤ word < 248 as a signed integer, and that every word of K is non-negative.
-/
import proofs.«416655_j3977139716373_3_alg».proof.Pre_finite_inputs
import proofs.«416655_j3977139716373_3_alg».proof.Proof.Gen.Pre_finite_inputs
import Idealize.ShloMosaic.Lib.ReduceAll
import Idealize.ShloMosaic.Lib.StableHlo.Predicate
import Idealize.ShloMosaic.Lib.ValueIdx

noncomputable section

namespace Cert.Bracket.Pre

open Idealize.ShloMosaic Idealize.ShloMosaic.ValueIdx Cert.Pre_finite_inputs

/-- The rank-0 shape has exactly one index: a reduction over every axis lands in it. -/
instance subsingleton_scalar_idx : Subsingleton S_.Idx := ⟨fun _ _ => funext fun d => d.elim0⟩

/-- A conjunction over all 4096 words of "word ≥ c" (signed), with c a scalar spread over the vector, that
    came out true says the comparison of values at every position. -/
theorem all_sge (X : IVec S4096 32) (c : BitVec 32)
    (hb : S_.BroadcastsInDim S4096 (![] : Fin 0 → Fin S4096.rank)) (hr : S4096.ReducesTo [0] S_) (hu : 0 < S_.numel)
    (init : IVec S_ 1)
    (e : Host.reduce IntOp.andi (cmpi .sge X (broadcastInDim S4096 ![] hb (constantI S_ 32 c))) init hr hu ix0 = 1#1)
    (n : Fin 4096) : c.toInt ≤ (X (ix1 n)).toInt := by
  -- the mask is 1 at every position; at position n it is the comparison of the n-th word with c
  have m : IntOp.cmpi .sge (X (ix1 n)) c = 1#1 := Host.reduce_andi_all _ init hr hu ix0 e (ix1 n)
  exact IntOp.cmpi_sge.1 m

/-- The same for "word < c" (signed). -/
theorem all_slt (X : IVec S4096 32) (c : BitVec 32)
    (hb : S_.BroadcastsInDim S4096 (![] : Fin 0 → Fin S4096.rank)) (hr : S4096.ReducesTo [0] S_) (hu : 0 < S_.numel)
    (init : IVec S_ 1)
    (e : Host.reduce IntOp.andi (cmpi .slt X (broadcastInDim S4096 ![] hb (constantI S_ 32 c))) init hr hu ix0 = 1#1)
    (n : Fin 4096) : (X (ix1 n)).toInt < c.toInt := by
  have m : IntOp.cmpi .slt (X (ix1 n)) c = 1#1 := Host.reduce_andi_all _ init hr hu ix0 e (ix1 n)
  exact IntOp.cmpi_slt.1 m

/-- The two constants the precondition compares with, as signed integers. -/
theorem toInt_zero32 : (0#32 : BitVec 32).toInt = 0 := by decide
theorem toInt_248 : (248#32 : BitVec 32).toInt = 248 := by decide

/-- THE INDEX RANGES the precondition states, word by word. -/
theorem index_ranges {F : FTy → Type} [FloatOps F] (a0 a1 : FVec F S65536x248 .f32) (I J K : IVec S4096 32) (C : FVec F S4096 .f32)
    (h : Cert.Pre_finite_inputs.fn (F := F) a0 a1 I J K C = fun _ => 1#1) :
    (∀ n : Fin 4096, 0 ≤ (I (ix1 n)).toInt ∧ (I (ix1 n)).toInt < 248)
    ∧ (∀ n : Fin 4096, 0 ≤ (J (ix1 n)).toInt ∧ (J (ix1 n)).toInt < 248)
    ∧ (∀ n : Fin 4096, 0 ≤ (K (ix1 n)).toInt) := by
  -- the predicate's one word is 1; it is a left-nested `and` of eight conjunctions, each over a whole array
  have e := congrFun h ValueIdx.ix0
  simp only [Cert.Pre_finite_inputs.fn, fn_part1, fn_part2, andi, IntOp.andi_eq_one] at e
  -- the three finiteness conjuncts are not needed here
  obtain ⟨⟨⟨⟨⟨-, hI0⟩, hI1⟩, hJ0⟩, hJ1⟩, hK0⟩ := e
  refine ⟨fun n => ⟨?_, ?_⟩, fun n => ⟨?_, ?_⟩, fun n => ?_⟩
  · have := all_sge I 0#32 _ _ _ _ hI0 n; rwa [toInt_zero32] at this
  · have := all_slt I 248#32 _ _ _ _ hI1 n; rwa [toInt_248] at this
  · have := all_sge J 0#32 _ _ _ _ hJ0 n; rwa [toInt_zero32] at this
  · have := all_slt J 248#32 _ _ _ _ hJ1 n; rwa [toInt_248] at this
  · have := all_sge K 0#32 _ _ _ _ hK0 n; rwa [toInt_zero32] at this

end Cert.Bracket.Pre

end
-- ==== Proof.PayloadValue.lean ====
/-
  The kernel body's arithmetic read at one element, over the extended reals.

  One trip of the body's loop takes a chunk of 1024 entries: it multiplies the row block of `v1` by the chunk's
  columns of the first selection table and the row block of `v2` by those of the second (two matrix products into
  zero), multiplies the two results entry by entry, multiplies that by the chunk's rows of the third table (a third
  product into zero) and adds the result to the running block. A change of float format is the identity here, and a
  matrix product into a zero accumulator is the plain sum over the contracted coordinate. The two other results of
  the body are the entrywise product of the two row blocks and its row sums.
-/
import proofs.«416655_j3977139716373_3_alg».proof.Proof.Gen.KernelIdeal.Skeleton
import Idealize.ShloMosaic.Lib.StackMember
import Idealize.ShloMosaic.Lib.KernelVsHost
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- A plain [M × K] by [K × N] matrix product into a zero accumulator, at (a, b): the sum over the contracted
    coordinate of the products of the entries. -/
theorem matmul_zero_plain {M K N : Nat} {φ₁ φ₂ : FTy} (prec : Option ContractPrecision)
    (A : FVec Ideal ⟨2, ![M, K]⟩ φ₁) (T : FVec Ideal ⟨2, ![K, N]⟩ φ₂) (a : Fin M) (b : Fin N) :
    matmul (DotDims.plain M K N) prec A T (constant ⟨2, ![M, N]⟩ .f32 0x00000000#32) (ix2 a b)
      = ∑ c : Fin K, A (ix2 a c) * T (ix2 c b) := by
  rw [matmul_zero_eq_dotGeneral]
  exact StackMember.dotGeneral_plain_apply prec A T a b

/-- The product of a row block by a chunk's columns of a selection table, at (r, n). -/
theorem select_cols (A : FVec Ideal S1024x248 .bf16) (T : FVec Ideal S248x1024 .bf16) (r n : Fin 1024) :
    matmul dot_S1024x248_S248x1024_S1024x1024_1_0_0_1_n_n none A T (constant S1024x1024 .f32 0x00000000#32) (ix2 r n)
      = ∑ d : Fin 248, A (ix2 r d) * T (ix2 d n) :=
  matmul_zero_plain none A T r n

/-- The product of the chunk's contributions by the chunk's rows of the third table, at (r, q). -/
theorem spread_rows (P : FVec Ideal S1024x1024 .bf16) (T : FVec Ideal S1024x248 .bf16) (r : Fin 1024) (q : Fin 248) :
    matmul dot_S1024x1024_S1024x248_S1024x248_1_0_0_1_n_n none P T (constant S1024x248 .f32 0x00000000#32) (ix2 r q)
      = ∑ n : Fin 1024, P (ix2 r n) * T (ix2 n q) :=
  matmul_zero_plain none P T r q

/-- ONE TRIP at (r, q): the running value plus the sum, over the chunk's 1024 entries, of the two selected values'
    product times the third table's entry. -/
theorem pay2_apply (v0 v1 : Vec Ideal S1024x248 .f32) (acc : FVec Ideal S1024x248 .f32)
    (v16 v19 : Vec Ideal S248x1024 .bf16) (v22 : Vec Ideal S1024x248 .bf16) (r : Fin 1024) (q : Fin 248) :
    k0_pay2 v0 v1 acc v16 v19 v22 (ix2 r q)
      = acc (ix2 r q) + ∑ n : Fin 1024,
          ((∑ d : Fin 248, v0 (ix2 r d) * v16 (ix2 d n)) * (∑ d : Fin 248, v1 (ix2 r d) * v19 (ix2 d n))) * v22 (ix2 n q) := by
  unfold k0_pay2
  rw [addf_apply, shapeCast_self, shapeCast_self, shapeCast_self, spread_rows]
  refine congrArg (acc (ix2 r q) + ·) (Finset.sum_congr rfl fun n _ => ?_)
  rw [truncf_apply, mulf_apply, select_cols, select_cols]
  rfl

/-- The entrywise product at (r, q). -/
theorem pay3_apply (v0 v1 : Vec Ideal S1024x248 .f32) (r : Fin 1024) (q : Fin 248) :
    k0_pay3 v0 v1 (ix2 r q) = v0 (ix2 r q) * v1 (ix2 r q) := rfl

/-- The row sums at (r, 0): the sum over the 248 columns of the entrywise product. -/
theorem pay4_apply (v0 v1 : Vec Ideal S1024x248 .f32) (r : Fin 1024) :
    k0_pay4 v0 v1 (ix2 r (0 : Fin 1)) = ∑ d : Fin 248, v0 (ix2 r d) * v1 (ix2 r d) := by
  unfold k0_pay4
  rw [shapeCast_apply _ _ (ix2 r (0 : Fin 1)) (ix1 r) (by
    rw [Shape.rowMajor_val_one, Shape.rowMajor_val_two]; show r.val = r.val * 1 + 0; omega)]
  refine (Ideal.multiReduction_add_single (k0_pay3 v0 v1) _ reduces_S1024x248_S1024 _ _ (ix1 r)).trans ?_
  refine Finset.sum_congr rfl fun d _ => ?_
  have e : reduces_S1024x248_S1024.lift (ix1 r) d = ix2 r d := by
    funext c; apply Fin.ext
    match c with
    | ⟨0, _⟩ => rfl
    | ⟨1, _⟩ => rfl
  rw [e]
  rfl

end Cert.KernelIdeal.Body

end
-- ==== Proof.ChunkSum.lean ====
/-
  A sum over 4096 entries, taken 1024 at a time: entry number 1024·k + j is entry j of chunk k, and the whole sum
  is the running total of the four chunk sums from zero, in order.
-/
import Mathlib.Algebra.BigOperators.Fin
import Mathlib.Logic.Equiv.Fin.Basic

namespace Cert.Bracket

/-- Entry j of chunk k. -/
def entryAt (k : Fin 4) (j : Fin 1024) : Fin 4096 := ⟨1024 * k.val + j.val, by omega⟩

theorem entryAt_val (k : Fin 4) (j : Fin 1024) : (entryAt k j).val = 1024 * k.val + j.val := rfl

/-- The sum over all entries is the sum over the chunks of the chunk sums. -/
theorem sum_entries_by_chunk {M : Type*} [AddCommMonoid M] (f : Fin 4096 → M) :
    ∑ n : Fin 4096, f n = ∑ k : Fin 4, ∑ j : Fin 1024, f (entryAt k j) := by
  rw [← Fintype.sum_prod_type' (fun k j => f (entryAt k j))]
  refine (Fintype.sum_equiv (finProdFinEquiv (m := 4) (n := 1024)) (fun x => f (entryAt x.1 x.2)) f (fun x => ?_)).symm
  congr 1
  apply Fin.ext
  show 1024 * x.1.val + x.2.val = x.2.val + 1024 * x.1.val
  omega

/-- The same as a running total from zero, the chunks in order. -/
theorem sum_entries_running {M : Type*} [AddCommMonoid M] (f : Fin 4096 → M) :
    (((0 + ∑ j : Fin 1024, f (entryAt 0 j)) + ∑ j : Fin 1024, f (entryAt 1 j)) + ∑ j : Fin 1024, f (entryAt 2 j))
        + ∑ j : Fin 1024, f (entryAt 3 j) = ∑ n : Fin 4096, f n := by
  rw [sum_entries_by_chunk, Fin.sum_univ_four, zero_add]

end Cert.Bracket
-- ==== Proof.KernelBlocks.lean ====
/-
  What one grid point of the kernel leaves in its three output blocks, as values.

  A point holds a block of 1024 rows of v1 and of v2 and the three whole tables. Its loop runs four trips; trip k reads
  columns 1024·k … 1024·k + 1023 of the two selection tables and the same rows of the third table, and adds that
  chunk's contribution to the running block, which starts at zero. So the first output block is, at (r, q), the sum
  over all 4096 entries n of (row r of the v1 block against column n of the first table) times (row r of the v2 block
  against column n of the second) times the third table's (n, q). The second output block is the entrywise product of
  the two row blocks and the third its row sums.
-/
import proofs.«416655_j3977139716373_3_alg».proof.Proof.Gen.KernelIdeal.Value
import proofs.«416655_j3977139716373_3_alg».proof.Proof.PayloadValue
import proofs.«416655_j3977139716373_3_alg».proof.Proof.ChunkSum
import Idealize.ShloMosaic.Lib.Tactic

set_option maxRecDepth 16384

noncomputable section

namespace Cert.KernelIdeal.Blocks

open Cert.KernelIdeal Cert.KernelIdeal.Gen Idealize.ShloMosaic Idealize.ShloMosaic.TcCoe Idealize.SL.Sem Idealize.ShloMosaic.Tactic
open Idealize.ShloMosaic.ValueIdx Cert.Bracket

variable {F : FTy → Type} [FloatOps F]

theorem zero_offsets : (![0, 0] : Fin 2 → Nat) = fun _ => 0 := funext fun a => by fin_cases a <;> rfl

/-- The loop makes four trips. -/
theorem trips_eq : k0_t1_loop.trips = 4 := by decide

/-- Trip number j of the four. -/
abbrev tk (j : Fin 4) : Fin k0_t1_loop.trips := ⟨j.val, by rw [trips_eq]; exact j.isLt⟩

/-- The columns a trip reads of a [248 × 4096] table. -/
def colChunk (x : Vec F S248x4096 .bf16) (k : Fin k0_t1_loop.trips) : Vec F S248x1024 .bf16 :=
  View.ld x (Rect.unit (s := S248x4096) (k0_off1 k) S248x1024.size (k0_off1_inb k))

/-- The rows a trip reads of the [4096 × 248] table. -/
def rowChunk (x : Vec F S4096x248 .bf16) (k : Fin k0_t1_loop.trips) : Vec F S1024x248 .bf16 :=
  View.ld x (Rect.unit (s := S4096x248) (k0_off2 k) S1024x248.size (k0_off2_inb k))

/-- Column j of trip k's chunk is column 1024·k + j of the table. -/
theorem colChunk_apply (x : Vec F S248x4096 .bf16) (k : Fin 4) (d : Fin 248) (j : Fin 1024) :
    colChunk x (tk k) (ix2 d j) = x (ix2 d (entryAt k j)) := by
  show x ((Rect.unit (s := S248x4096) (k0_off1 (tk k)) S248x1024.size (k0_off1_inb (tk k))).idx (ix2 d j)) = _
  congr 1
  funext a
  apply Fin.ext
  match a with
  | ⟨0, _⟩ =>
    show k0_off1 (tk k) 0 + 1 * d.val = d.val
    rw [k0_off1_eq]
    show 0 + 1 * d.val = d.val
    omega
  | ⟨1, _⟩ =>
    show k0_off1 (tk k) 1 + 1 * j.val = 1024 * k.val + j.val
    rw [k0_off1_eq]
    show 1024 * k.val + 1 * j.val = 1024 * k.val + j.val
    omega

/-- Row j of trip k's chunk is row 1024·k + j of the table. -/
theorem rowChunk_apply (x : Vec F S4096x248 .bf16) (k : Fin 4) (j : Fin 1024) (q : Fin 248) :
    rowChunk x (tk k) (ix2 j q) = x (ix2 (entryAt k j) q) := by
  show x ((Rect.unit (s := S4096x248) (k0_off2 (tk k)) S1024x248.size (k0_off2_inb (tk k))).idx (ix2 j q)) = _
  congr 1
  funext a
  apply Fin.ext
  match a with
  | ⟨0, _⟩ =>
    show k0_off2 (tk k) 0 + 1 * j.val = 1024 * k.val + j.val
    rw [k0_off2_eq]
    show 1024 * k.val + 1 * j.val = 1024 * k.val + j.val
    omega
  | ⟨1, _⟩ =>
    show k0_off2 (tk k) 1 + 1 * q.val = q.val
    rw [k0_off2_eq]
    show 0 + 1 * q.val = q.val
    omega

/-- One trip: the running block plus the chunk's contribution. -/
def trip (x0 x1 : Vec F S1024x248 .f32) (x2 x3 : Vec F S248x4096 .bf16) (x4 : Vec F S4096x248 .bf16)
    (k : Fin k0_t1_loop.trips) (acc : FVec F S1024x248 .f32) : FVec F S1024x248 .f32 :=
  k0_pay2 x0 x1 acc (colChunk x2 k) (colChunk x3 k) (rowChunk x4 k)

/-- What a trip of the loop yields, from the running block and what the three table buffers hold. -/
theorem tripR_eq (𝒱 : Variants) (bd : Option 𝒱.V) (c : Dev nD) (i : grid0.Coords) (arg1 : Memref sig .tc .vmem S1024x248 .f32) (harg1 : arg1.IsWhole) (arg2 : Memref sig .tc .vmem S1024x248 .f32) (harg2 : arg2.IsWhole) (arg3 : Memref sig .tc .vmem S248x4096 .bf16) (harg3 : arg3.IsWhole) (arg4 : Memref sig .tc .vmem S248x4096 .bf16) (harg4 : arg4.IsWhole) (arg5 : Memref sig .tc .vmem S4096x248 .bf16) (harg5 : arg5.IsWhole) (arg6 : Memref sig .tc .vmem S1024x248 .f32) (harg6 : arg6.IsWhole) (arg7 : Memref sig .tc .vmem S1024x248 .f32) (harg7 : arg7.IsWhole) (arg8 : Memref sig .tc .vmem S1024x1 .f32) (harg8 : arg8.IsWhole) (v0 v1 : Vec F S1024x248 .f32) (X_arg3 : BufTy.Contents (Elt F) arg3.view.ty) (X_arg4 : BufTy.Contents (Elt F) arg4.view.ty) (X_arg5 : BufTy.Contents (Elt F) arg5.view.ty) (k : Fin k0_t1_loop.trips) (acc : FVec F S1024x248 .f32) :
    tripR_k0_t1 (F := F) 𝒱 c bd i arg1 harg1 arg2 harg2 arg3 harg3 arg4 harg4 arg5 harg5 arg6 harg6 arg7 harg7 arg8 harg8 v0 v1 X_arg3 X_arg4 X_arg5 k acc
      = k0_pay2 v0 v1 acc (colChunk (arg3.view.read (Elt F) X_arg3) k) (colChunk (arg4.view.read (Elt F) X_arg4) k) (rowChunk (arg5.view.read (Elt F) X_arg5) k) := by
  unfold tripR_k0_t1 trip_k0_t1
  rfl

/-- THE FIRST OUTPUT BLOCK: the four trips, in order, from the zero block. -/
theorem piece5 (c : Dev nD) (i : grid0.Coords) (arg1 : Memref sig .tc .vmem S1024x248 .f32) (harg1 : arg1.IsWhole) (arg2 : Memref sig .tc .vmem S1024x248 .f32) (harg2 : arg2.IsWhole) (arg3 : Memref sig .tc .vmem S248x4096 .bf16) (harg3 : arg3.IsWhole) (arg4 : Memref sig .tc .vmem S248x4096 .bf16) (harg4 : arg4.IsWhole) (arg5 : Memref sig .tc .vmem S4096x248 .bf16) (harg5 : arg5.IsWhole) (arg6 : Memref sig .tc .vmem S1024x248 .f32) (harg6 : arg6.IsWhole) (arg7 : Memref sig .tc .vmem S1024x248 .f32) (harg7 : arg7.IsWhole) (arg8 : Memref sig .tc .vmem S1024x1 .f32) (harg8 : arg8.IsWhole)
    (x0 : Vec F S1024x248 .f32) (x1 : Vec F S1024x248 .f32) (x2 : Vec F S248x4096 .bf16) (x3 : Vec F S248x4096 .bf16) (x4 : Vec F S4096x248 .bf16) :
    out0_A_5 c i arg1 harg1 arg2 harg2 arg3 harg3 arg4 harg4 arg5 harg5 arg6 harg6 arg7 harg7 arg8 harg8 x0 x1 x2 x3 x4
      = trip x0 x1 x2 x3 x4 (tk 3) (trip x0 x1 x2 x3 x4 (tk 2) (trip x0 x1 x2 x3 x4 (tk 1) (trip x0 x1 x2 x3 x4 (tk 0) k0_pay1))) := by
  unfold out0_A_5
  rw [View.read_writes_eq_canon _ _ _ (cover0_A_5 c i arg1 harg1 arg2 harg2 arg3 harg3 arg4 harg4 arg5 harg5 arg6 harg6 arg7 harg7 arg8 harg8 x0 x1 x2 x3 x4)]
  unfold kernelRun0_A
  dsimp only
  sl_unfold_words
  rw [View.canon_unit_zero zero_offsets]
  rw [show Scf.trips (0#32) (Scalar.addi 0#32 4#32) 1#32 = (tk 3).val + 1 from by decide, st_k0_t1_succ,
    show (tk 3).val = (tk 2).val + 1 from rfl, st_k0_t1_succ,
    show (tk 2).val = (tk 1).val + 1 from rfl, st_k0_t1_succ,
    show (tk 1).val = (tk 0).val + 1 from rfl, st_k0_t1_succ]
  simp only [tripR_eq, View.readAt_eq_ld, harg1.read_unread, harg2.read_unread, harg3.read_unread, harg4.read_unread, harg5.read_unread,
    View.ld_unit_zero (S := S1024x248) zero_offsets]
  rfl

/-- THE SECOND OUTPUT BLOCK: the entrywise product of the two row blocks. -/
theorem piece6 (c : Dev nD) (i : grid0.Coords) (arg1 : Memref sig .tc .vmem S1024x248 .f32) (harg1 : arg1.IsWhole) (arg2 : Memref sig .tc .vmem S1024x248 .f32) (harg2 : arg2.IsWhole) (arg3 : Memref sig .tc .vmem S248x4096 .bf16) (harg3 : arg3.IsWhole) (arg4 : Memref sig .tc .vmem S248x4096 .bf16) (harg4 : arg4.IsWhole) (arg5 : Memref sig .tc .vmem S4096x248 .bf16) (harg5 : arg5.IsWhole) (arg6 : Memref sig .tc .vmem S1024x248 .f32) (harg6 : arg6.IsWhole) (arg7 : Memref sig .tc .vmem S1024x248 .f32) (harg7 : arg7.IsWhole) (arg8 : Memref sig .tc .vmem S1024x1 .f32) (harg8 : arg8.IsWhole)
    (x0 : Vec F S1024x248 .f32) (x1 : Vec F S1024x248 .f32) (x2 : Vec F S248x4096 .bf16) (x3 : Vec F S248x4096 .bf16) (x4 : Vec F S4096x248 .bf16) :
    out0_A_6 c i arg1 harg1 arg2 harg2 arg3 harg3 arg4 harg4 arg5 harg5 arg6 harg6 arg7 harg7 arg8 harg8 x0 x1 x2 x3 x4 = k0_pay3 x0 x1 := by
  unfold out0_A_6
  rw [View.read_writes_eq_canon _ _ _ (cover0_A_6 c i arg1 harg1 arg2 harg2 arg3 harg3 arg4 harg4 arg5 harg5 arg6 harg6 arg7 harg7 arg8 harg8 x0 x1 x2 x3 x4)]
  unfold kernelRun0_A
  dsimp only
  sl_unfold_words
  rw [View.canon_unit_zero zero_offsets]
  simp only [View.readAt_eq_ld, harg1.read_unread, harg2.read_unread, View.ld_unit_zero (S := S1024x248) zero_offsets]

/-- THE THIRD OUTPUT BLOCK: its row sums. -/
theorem piece7 (c : Dev nD) (i : grid0.Coords) (arg1 : Memref sig .tc .vmem S1024x248 .f32) (harg1 : arg1.IsWhole) (arg2 : Memref sig .tc .vmem S1024x248 .f32) (harg2 : arg2.IsWhole) (arg3 : Memref sig .tc .vmem S248x4096 .bf16) (harg3 : arg3.IsWhole) (arg4 : Memref sig .tc .vmem S248x4096 .bf16) (harg4 : arg4.IsWhole) (arg5 : Memref sig .tc .vmem S4096x248 .bf16) (harg5 : arg5.IsWhole) (arg6 : Memref sig .tc .vmem S1024x248 .f32) (harg6 : arg6.IsWhole) (arg7 : Memref sig .tc .vmem S1024x248 .f32) (harg7 : arg7.IsWhole) (arg8 : Memref sig .tc .vmem S1024x1 .f32) (harg8 : arg8.IsWhole)
    (x0 : Vec F S1024x248 .f32) (x1 : Vec F S1024x248 .f32) (x2 : Vec F S248x4096 .bf16) (x3 : Vec F S248x4096 .bf16) (x4 : Vec F S4096x248 .bf16) :
    out0_A_7 c i arg1 harg1 arg2 harg2 arg3 harg3 arg4 harg4 arg5 harg5 arg6 harg6 arg7 harg7 arg8 harg8 x0 x1 x2 x3 x4 = k0_pay4 x0 x1 := by
  unfold out0_A_7
  rw [View.read_writes_eq_canon _ _ _ (cover0_A_7 c i arg1 harg1 arg2 harg2 arg3 harg3 arg4 harg4 arg5 harg5 arg6 harg6 arg7 harg7 arg8 harg8 x0 x1 x2 x3 x4)]
  unfold kernelRun0_A
  dsimp only
  sl_unfold_words
  rw [View.canon_unit_zero zero_offsets]
  simp only [View.readAt_eq_ld, harg1.read_unread, harg2.read_unread, View.ld_unit_zero (S := S1024x248) zero_offsets]

/-- The four trips at (r, q), over the extended reals: the sum over all 4096 entries. -/
theorem loop_apply (x0 x1 : Vec Ideal S1024x248 .f32) (x2 x3 : Vec Ideal S248x4096 .bf16) (x4 : Vec Ideal S4096x248 .bf16)
    (r : Fin 1024) (q : Fin 248) :
    trip x0 x1 x2 x3 x4 (tk 3) (trip x0 x1 x2 x3 x4 (tk 2) (trip x0 x1 x2 x3 x4 (tk 1) (trip x0 x1 x2 x3 x4 (tk 0) (k0_pay1 (F := Ideal))))) (ix2 r q)
      = ∑ n : Fin 4096, ((∑ d : Fin 248, x0 (ix2 r d) * x2 (ix2 d n)) * (∑ d : Fin 248, x1 (ix2 r d) * x3 (ix2 d n))) * x4 (ix2 n q) := by
  unfold trip
  rw [Body.pay2_apply, Body.pay2_apply, Body.pay2_apply, Body.pay2_apply]
  simp only [colChunk_apply, rowChunk_apply]
  rw [show (k0_pay1 (F := Ideal)) (ix2 r q) = 0 from Ideal.ofBits_zero_f32]
  exact sum_entries_running (fun n => ((∑ d : Fin 248, x0 (ix2 r d) * x2 (ix2 d n)) * (∑ d : Fin 248, x1 (ix2 r d) * x3 (ix2 d n))) * x4 (ix2 n q))

end Cert.KernelIdeal.Blocks

end
-- ==== Proof.Spec.lean ====
/-
  THE SPECIFICATION: what both programs compute, as functions of the six argument arrays, over the extended reals.

  v1, v2 are [65536 × 248] arrays, I, J, K are 4096 index words each and C holds 4096 coefficients. The first result
  is a contraction through three tables: entry n selects one column of v1 (the column whose number is word I n) and one
  of v2 (word J n), multiplies the two selected values, scales the product by C n and adds it to column K n of the
  result. A selection is written as a sum against a one-hot table (1 where the column's number is the index word, 0
  elsewhere), which is a total function of the words: a word that is no column's number selects nothing. The second
  result is the entrywise product of v1 and v2 and the third its row sums.
-/
import Idealize.ShloMosaic.PureOps.Ideal
import Idealize.ShloMosaic.Lib.ValueIdx

noncomputable section

namespace Cert.Bracket

open Idealize.ShloMosaic Idealize.ShloMosaic.ValueIdx

abbrev SBD : Shape := ⟨2, ![65536, 248]⟩
abbrev SDN : Shape := ⟨2, ![248, 4096]⟩
abbrev SND : Shape := ⟨2, ![4096, 248]⟩
abbrev SN : Shape := ⟨1, ![4096]⟩
abbrev SB1 : Shape := ⟨2, ![65536, 1]⟩

/-- 1 where two words are equal, 0 where they differ. -/
def hot (a b : BitVec 32) : EReal := if a = b then 1 else 0

theorem hot_self (a : BitVec 32) : hot a a = 1 := if_pos rfl
theorem hot_of_ne {a b : BitVec 32} (h : a ≠ b) : hot a b = 0 := if_neg h

/-- An equality test's bit converted to a float, at the extended reals, is that 1 or 0. -/
theorem uitofp_cmpi_eq (φ : FTy) (a b : BitVec 32) :
    (FloatOps.uitofp (F := Ideal) φ (IntOp.cmpi .eq a b) : Ideal φ) = hot a b := by
  show (((IntOp.cmpi .eq a b).toNat : ℝ) : EReal) = hot a b
  unfold hot
  by_cases h : a = b
  · subst h
    rw [if_pos rfl]
    have : IntOp.cmpi .eq a a = 1#1 := by simp [IntOp.cmpi]
    rw [this]
    simp
  · rw [if_neg h]
    have : IntOp.cmpi .eq a b = 0#1 := by simp [IntOp.cmpi, beq_eq_false_iff_ne.mpr h]
    rw [this]
    simp

/-- The contraction through three tables: at (b, q) the sum over the entries n of (row b of a0 against column n of
    t2) times (row b of a1 against column n of t3) times t4 (n, q). -/
def contract (a0 a1 : SBD.Idx → EReal) (t2 t3 : SDN.Idx → EReal) (t4 : SND.Idx → EReal) : SBD.Idx → EReal :=
  fun i => ∑ n : Fin 4096,
    ((∑ d : Fin 248, a0 (ix2 (i 0) d) * t2 (ix2 d n)) * (∑ d : Fin 248, a1 (ix2 (i 0) d) * t3 (ix2 d n))) * t4 (ix2 n (i 1))

/-- The one-hot table of an index vector: 1 at (d, n) where column d's number is word n. -/
def selTable (I : SN.Idx → BitVec 32) : SDN.Idx → EReal :=
  fun j => hot (BitVec.ofNat 32 (j 0).val) (I (ix1 (j 1)))

/-- The scaled one-hot table of the destination words: C n at (n, q) where word n is column q's number. -/
def outTable (K : SN.Idx → BitVec 32) (C : SN.Idx → EReal) : SND.Idx → EReal :=
  fun j => hot (K (ix1 (j 0))) (BitVec.ofNat 32 (j 1).val) * C (ix1 (j 0))

/-- The first result. -/
def bracket (v1 v2 : SBD.Idx → EReal) (I J K : SN.Idx → BitVec 32) (C : SN.Idx → EReal) : SBD.Idx → EReal :=
  contract v1 v2 (selTable I) (selTable J) (outTable K C)

/-- The second result: the entrywise product. -/
def sym (v1 v2 : SBD.Idx → EReal) : SBD.Idx → EReal := fun i => v1 i * v2 i

/-- The third result: each row's sum of the entrywise product, kept as a column. -/
def rowDot (v1 v2 : SBD.Idx → EReal) : SB1.Idx → EReal :=
  fun i => ∑ d : Fin 248, v1 (ix2 (i 0) d) * v2 (ix2 (i 0) d)

end Cert.Bracket

end
-- ==== Proof.KernelArrays.lean ====
/-
  The kernel's three result arrays are the specification's functions of the six argument arrays.

  The grid has 64 points; point t holds rows 1024·t … 1024·t + 1023 of v1 and v2 and the three tables whole, and writes
  back the same rows of each result. The tables are made before the launch from the index words: the first two hold,
  at (d, n), 1 where column d's number is word n of I (of J) and 0 elsewhere; the third holds, at (n, q), C n where word
  n of K is column q's number and 0 elsewhere. So what point t writes back is the block of the specification's
  contraction through these tables at its rows, and the 64 blocks tile each result array.
-/
import proofs.«416655_j3977139716373_3_alg».proof.Proof.KernelBlocks
import proofs.«416655_j3977139716373_3_alg».proof.Proof.Spec
import Idealize.ShloMosaic.Lib.StableHlo.Predicate
import Idealize.ShloMosaic.Lib.StableHlo.Run
import Idealize.ShloMosaic.Lib.Pipeline.Value

set_option maxRecDepth 16384

noncomputable section

namespace Cert.KernelIdeal.Arrays

open Cert.KernelIdeal Cert.KernelIdeal.Gen Idealize.ShloMosaic Idealize.ShloMosaic.TcCoe Idealize.SL.Sem Idealize.ShloMosaic.Tactic
open Idealize.ShloMosaic.ValueIdx Cert.Bracket Cert.KernelIdeal.Blocks
open Idealize.ShloMosaic.StableHlo Idealize.ShloMosaic.StableHlo.Predicate
open Idealize.ShloMosaic.Pipeline (Dat)

variable (m : (ℓ : Loc nD τ sig) → Buf (Elt Ideal) ℓ) (ρ : Dev nD → PrngReg)

/-! ## The six arguments, by their literal types -/

abbrev argV1 (c : Dev nD) : SBD.Idx → EReal := m ((c : Thread nD τ).loc main_arg0)
abbrev argV2 (c : Dev nD) : SBD.Idx → EReal := m ((c : Thread nD τ).loc main_arg1)
abbrev argI (c : Dev nD) : SN.Idx → BitVec 32 := m ((c : Thread nD τ).loc main_arg2)
abbrev argJ (c : Dev nD) : SN.Idx → BitVec 32 := m ((c : Thread nD τ).loc main_arg3)
abbrev argK (c : Dev nD) : SN.Idx → BitVec 32 := m ((c : Thread nD τ).loc main_arg4)
abbrev argC (c : Dev nD) : SN.Idx → EReal := m ((c : Thread nD τ).loc main_arg5)

/-! ## The grid -/

theorem points : cfg0.N = 64 := N_0

/-- Row r of grid point t's block is row 1024·t + r of the array. -/
def rowAt (t : Fin cfg0.N) (r : Fin 1024) : Fin 65536 := ⟨1024 * t.val + r.val, by have := t.isLt; have h := points; omega⟩

/-- The printed index maps, decided over the 64 points: the row windows sit at block t, the tables at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-! ## The input blocks, read at an element -/

theorem blk0_apply (c : Dev nD) (t : Fin cfg0.N) (r : Fin 1024) (d : Fin 248) :
    iblk m c 0 t (ix2 r d) = V m c main_arg0 (ix2 (rowAt t r) d) := by
  show V m c main_arg0 (((cfg0.win 0).blk t).view.emb (ix2 r d)) = _
  congr 1
  funext a
  apply Fin.ext
  obtain ⟨e0, e1, -⟩ := idx_facts t
  match a with
  | ⟨0, _⟩ => show win0_0.index t (0 : Fin 2) * 1024 + 1 * r.val = 1024 * t.val + r.val; omega
  | ⟨1, _⟩ => show win0_0.index t (1 : Fin 2) * 248 + 1 * d.val = d.val; omega

theorem blk1_apply (c : Dev nD) (t : Fin cfg0.N) (r : Fin 1024) (d : Fin 248) :
    iblk m c 1 t (ix2 r d) = V m c main_arg1 (ix2 (rowAt t r) d) := by
  show V m c main_arg1 (((cfg0.win 1).blk t).view.emb (ix2 r d)) = _
  congr 1
  funext a
  apply Fin.ext
  obtain ⟨-, -, e0, e1, -⟩ := idx_facts t
  match a with
  | ⟨0, _⟩ => show win0_1.index t (0 : Fin 2) * 1024 + 1 * r.val = 1024 * t.val + r.val; omega
  | ⟨1, _⟩ => show win0_1.index t (1 : Fin 2) * 248 + 1 * d.val = d.val; omega

theorem blk2_apply (c : Dev nD) (t : Fin cfg0.N) (d : Fin 248) (n : Fin 4096) :
    iblk m c 2 t (ix2 d n) = V m c main_v6 (ix2 d n) := by
  show V m c main_v6 (((cfg0.win 2).blk t).view.emb (ix2 d n)) = _
  congr 1
  funext a
  apply Fin.ext
  obtain ⟨-, -, -, -, e0, e1, -⟩ := idx_facts t
  match a with
  | ⟨0, _⟩ => show win0_2.index t (0 : Fin 2) * 248 + 1 * d.val = d.val; omega
  | ⟨1, _⟩ => show win0_2.index t (1 : Fin 2) * 4096 + 1 * n.val = n.val; omega

theorem blk3_apply (c : Dev nD) (t : Fin cfg0.N) (d : Fin 248) (n : Fin 4096) :
    iblk m c 3 t (ix2 d n) = V m c main_v12 (ix2 d n) := by
  show V m c main_v12 (((cfg0.win 3).blk t).view.emb (ix2 d n)) = _
  congr 1
  funext a
  apply Fin.ext
  obtain ⟨-, -, -, -, -, -, e0, e1, -⟩ := idx_facts t
  match a with
  | ⟨0, _⟩ => show win0_3.index t (0 : Fin 2) * 248 + 1 * d.val = d.val; omega
  | ⟨1, _⟩ => show win0_3.index t (1 : Fin 2) * 4096 + 1 * n.val = n.val; omega

theorem blk4_apply (c : Dev nD) (t : Fin cfg0.N) (n : Fin 4096) (q : Fin 248) :
    iblk m c 4 t (ix2 n q) = V m c main_v22 (ix2 n q) := by
  show V m c main_v22 (((cfg0.win 4).blk t).view.emb (ix2 n q)) = _
  congr 1
  funext a
  apply Fin.ext
  obtain ⟨-, -, -, -, -, -, -, -, e0, e1, -⟩ := idx_facts t
  match a with
  | ⟨0, _⟩ => show win0_4.index t (0 : Fin 2) * 4096 + 1 * n.val = n.val; omega
  | ⟨1, _⟩ => show win0_4.index t (1 : Fin 2) * 248 + 1 * q.val = q.val; omega

/-! ## Where the output blocks sit -/

theorem emb5_apply (t : Fin cfg0.N) (r : Fin 1024) (q : Fin 248) :
    ((cfg0.win 5).blk t).view.emb (ix2 r q) = ix2 (rowAt t r) q := by
  funext a
  apply Fin.ext
  obtain ⟨-, -, -, -, -, -, -, -, -, -, e0, e1, -⟩ := idx_facts t
  match a with
  | ⟨0, _⟩ => show win0_5.index t (0 : Fin 2) * 1024 + 1 * r.val = 1024 * t.val + r.val; omega
  | ⟨1, _⟩ => show win0_5.index t (1 : Fin 2) * 248 + 1 * q.val = q.val; omega

theorem emb6_apply (t : Fin cfg0.N) (r : Fin 1024) (q : Fin 248) :
    ((cfg0.win 6).blk t).view.emb (ix2 r q) = ix2 (rowAt t r) q := by
  funext a
  apply Fin.ext
  obtain ⟨-, -, -, -, -, -, -, -, -, -, -, -, e0, e1, -⟩ := idx_facts t
  match a with
  | ⟨0, _⟩ => show win0_6.index t (0 : Fin 2) * 1024 + 1 * r.val = 1024 * t.val + r.val; omega
  | ⟨1, _⟩ => show win0_6.index t (1 : Fin 2) * 248 + 1 * q.val = q.val; omega

theorem emb7_apply (t : Fin cfg0.N) (r : Fin 1024) :
    ((cfg0.win 7).blk t).view.emb (ix2 r (0 : Fin 1)) = ix2 (rowAt t r) (0 : Fin 1) := by
  funext a
  apply Fin.ext
  obtain ⟨-, -, -, -, -, -, -, -, -, -, -, -, -, -, e0, e1⟩ := idx_facts t
  match a with
  | ⟨0, _⟩ => show win0_7.index t (0 : Fin 2) * 1024 + 1 * r.val = 1024 * t.val + r.val; omega
  | ⟨1, _⟩ => show win0_7.index t (1 : Fin 2) * 1 + 1 * 0 = 0; omega

/-! ## The three tables, read at an element -/

theorem ij_eq_ix2 {n k : Nat} (p : Fin n) (q : Fin k) : ij p q = ix2 p q := by
  funext b; match b with | ⟨0, _⟩ => rfl | ⟨1, _⟩ => rfl

theorem ofFin_eq_ix1 {n : Nat} (p : Fin n) : (Shape.Idx.ofFin p : (⟨1, ![n]⟩ : Shape).Idx) = ix1 p := by
  funext b; match b with | ⟨0, _⟩ => rfl

/-- The first selection table as the host operations make it. -/
theorem tabI_term (c : Dev nD) : (V m c main_v6 : S248x4096.Idx → EReal) =
    uitofp (F := Ideal) .bf16 (cmpi .eq (broadcastInDim S248x4096 ![0, 1] bcast_S248x1_S248x4096_0_1 (broadcastInDim S248x1 ![0] bcast_S248_S248x1_0 (iotaInDim S248 32 0)))
      (broadcastInDim S248x4096 ![0, 1] bcast_S1x4096_S248x4096_0_1 (broadcastInDim S1x4096 ![1] bcast_S4096_S1x4096_1 (m ((c : Thread nD τ).loc main_arg2))))) := by
  dsimp only [Gen.V, Gen.hostOps0]
  after_results

/-- … at (d, n): 1 where column d's number is word n of I. -/
theorem tabI_apply (c : Dev nD) (d : Fin 248) (n : Fin 4096) :
    (V m c main_v6 : S248x4096.Idx → EReal) (ix2 d n) = hot (BitVec.ofNat 32 d.val) ((m ((c : Thread nD τ).loc main_arg2)) (ix1 n)) := by
  rw [tabI_term]
  show FloatOps.uitofp (F := Ideal) .bf16 (IntOp.cmpi .eq _ _) = _
  rw [uitofp_cmpi_eq, ← ij_eq_ix2, bcast_rows, bcast_cols, ofFin_eq_ix1, ofFin_eq_ix1]
  rfl

/-- The second selection table as the host operations make it. -/
theorem tabJ_term (c : Dev nD) : (V m c main_v12 : S248x4096.Idx → EReal) =
    uitofp (F := Ideal) .bf16 (cmpi .eq (broadcastInDim S248x4096 ![0, 1] bcast_S248x1_S248x4096_0_1 (broadcastInDim S248x1 ![0] bcast_S248_S248x1_0 (iotaInDim S248 32 0)))
      (broadcastInDim S248x4096 ![0, 1] bcast_S1x4096_S248x4096_0_1 (broadcastInDim S1x4096 ![1] bcast_S4096_S1x4096_1 (m ((c : Thread nD τ).loc main_arg3))))) := by
  dsimp only [Gen.V, Gen.hostOps0]
  after_results

/-- … at (d, n): 1 where column d's number is word n of J. -/
theorem tabJ_apply (c : Dev nD) (d : Fin 248) (n : Fin 4096) :
    (V m c main_v12 : S248x4096.Idx → EReal) (ix2 d n) = hot (BitVec.ofNat 32 d.val) ((m ((c : Thread nD τ).loc main_arg3)) (ix1 n)) := by
  rw [tabJ_term]
  show FloatOps.uitofp (F := Ideal) .bf16 (IntOp.cmpi .eq _ _) = _
  rw [uitofp_cmpi_eq, ← ij_eq_ix2, bcast_rows, bcast_cols, ofFin_eq_ix1, ofFin_eq_ix1]
  rfl

/-- The third table as the host operations make it. -/
theorem tabK_term (c : Dev nD) : (V m c main_v22 : S4096x248.Idx → EReal) =
    truncf (F := Ideal) .bf16 (mulf (uitofp (F := Ideal) .f32 (cmpi .eq
        (broadcastInDim S4096x248 ![0, 1] bcast_S4096x1_S4096x248_0_1 (broadcastInDim S4096x1 ![0] bcast_S4096_S4096x1_0 (m ((c : Thread nD τ).loc main_arg4))))
        (broadcastInDim S4096x248 ![0, 1] bcast_S1x248_S4096x248_0_1 (broadcastInDim S1x248 ![1] bcast_S248_S1x248_1 (iotaInDim S248 32 0)))))
      (broadcastInDim S4096x248 ![0, 1] bcast_S4096x1_S4096x248_0_1 (broadcastInDim S4096x1 ![0] bcast_S4096_S4096x1_0 (m ((c : Thread nD τ).loc main_arg5))))) bitsLt_bf16_f32 := by
  dsimp only [Gen.V, Gen.hostOps0]
  after_results

/-- … at (n, q): C n where word n of K is column q's number, else 0. -/
theorem tabK_apply (c : Dev nD) (n : Fin 4096) (q : Fin 248) :
    (V m c main_v22 : S4096x248.Idx → EReal) (ix2 n q)
      = hot ((m ((c : Thread nD τ).loc main_arg4)) (ix1 n)) (BitVec.ofNat 32 q.val) * (m ((c : Thread nD τ).loc main_arg5)) (ix1 n) := by
  rw [tabK_term]
  show FloatOps.uitofp (F := Ideal) .f32 (IntOp.cmpi .eq _ _) * _ = _
  rw [uitofp_cmpi_eq, ← ij_eq_ix2, bcast_rows, bcast_cols, bcast_rows, ofFin_eq_ix1, ofFin_eq_ix1]
  rfl

/-! ## What a point writes back -/

/-- The five input blocks of a point, by their literal types. -/
abbrev blkV1 (c : Dev nD) (t : Fin cfg0.N) : Vec Ideal S1024x248 .f32 := iblk m c 0 t
abbrev blkV2 (c : Dev nD) (t : Fin cfg0.N) : Vec Ideal S1024x248 .f32 := iblk m c 1 t
abbrev blkI (c : Dev nD) (t : Fin cfg0.N) : Vec Ideal S248x4096 .bf16 := iblk m c 2 t
abbrev blkJ (c : Dev nD) (t : Fin cfg0.N) : Vec Ideal S248x4096 .bf16 := iblk m c 3 t
abbrev blkK (c : Dev nD) (t : Fin cfg0.N) : Vec Ideal S4096x248 .bf16 := iblk m c 4 t

theorem blkV1_apply (c : Dev nD) (t : Fin cfg0.N) (r : Fin 1024) (d : Fin 248) :
    blkV1 m c t (ix2 r d) = argV1 m c (ix2 (rowAt t r) d) :=
  (blk0_apply m c t r d).trans (congrFun (V_main_arg0 m c) _)

theorem blkV2_apply (c : Dev nD) (t : Fin cfg0.N) (r : Fin 1024) (d : Fin 248) :
    blkV2 m c t (ix2 r d) = argV2 m c (ix2 (rowAt t r) d) :=
  (blk1_apply m c t r d).trans (congrFun (V_main_arg1 m c) _)

theorem blkI_apply (c : Dev nD) (t : Fin cfg0.N) (d : Fin 248) (n : Fin 4096) :
    blkI m c t (ix2 d n) = selTable (argI m c) (ix2 d n) :=
  (blk2_apply m c t d n).trans (tabI_apply m c d n)

theorem blkJ_apply (c : Dev nD) (t : Fin cfg0.N) (d : Fin 248) (n : Fin 4096) :
    blkJ m c t (ix2 d n) = selTable (argJ m c) (ix2 d n) :=
  (blk3_apply m c t d n).trans (tabJ_apply m c d n)

theorem blkK_apply (c : Dev nD) (t : Fin cfg0.N) (n : Fin 4096) (q : Fin 248) :
    blkK m c t (ix2 n q) = outTable (argK m c) (argC m c) (ix2 n q) :=
  (blk4_apply m c t n q).trans (tabK_apply m c n q)

/-- The contraction of a point's blocks at (r, q) is the specification's at row 1024·t + r. -/
theorem point_value (c : Dev nD) (t : Fin cfg0.N) (r : Fin 1024) (q : Fin 248) :
    (∑ n : Fin 4096, ((∑ d : Fin 248, blkV1 m c t (ix2 r d) * blkI m c t (ix2 d n))
        * (∑ d : Fin 248, blkV2 m c t (ix2 r d) * blkJ m c t (ix2 d n))) * blkK m c t (ix2 n q))
      = bracket (argV1 m c) (argV2 m c) (argI m c) (argJ m c) (argK m c) (argC m c) (ix2 (rowAt t r) q) := by
  show _ = ∑ n : Fin 4096, ((∑ d : Fin 248, argV1 m c (ix2 (rowAt t r) d) * selTable (argI m c) (ix2 d n))
      * (∑ d : Fin 248, argV2 m c (ix2 (rowAt t r) d) * selTable (argJ m c) (ix2 d n)))
      * outTable (argK m c) (argC m c) (ix2 n q)
  refine Finset.sum_congr rfl fun n _ => ?_
  have e1 : (∑ d : Fin 248, blkV1 m c t (ix2 r d) * blkI m c t (ix2 d n))
      = ∑ d : Fin 248, argV1 m c (ix2 (rowAt t r) d) * selTable (argI m c) (ix2 d n) :=
    Finset.sum_congr rfl fun d _ => by rw [blkV1_apply, blkI_apply]
  have e2 : (∑ d : Fin 248, blkV2 m c t (ix2 r d) * blkJ m c t (ix2 d n))
      = ∑ d : Fin 248, argV2 m c (ix2 (rowAt t r) d) * selTable (argJ m c) (ix2 d n) :=
    Finset.sum_congr rfl fun d _ => by rw [blkV2_apply, blkJ_apply]
  rw [e1, e2, blkK_apply]

/-- Point t writes back, to the first result, the rows of the contraction through the one-hot tables. -/
theorem flushed5_eq (c : Dev nD) (t : Fin cfg0.N) :
    (dats m 0 c).flushed 5 t = ((cfg0.win 5).blk t).view.read (Elt Ideal) (bracket (argV1 m c) (argV2 m c) (argI m c) (argJ m c) (argK m c) (argC m c)) := by
  rw [Value.flushed5_A, piece5]
  funext y
  obtain ⟨r, q, rfl⟩ : ∃ (r : Fin 1024) (q : Fin 248), y = ix2 r q := ⟨y 0, y 1, eq_ix2 (n0 := 1024) (n1 := 248) y⟩
  refine (loop_apply (blkV1 m c t) (blkV2 m c t) (blkI m c t) (blkJ m c t) (blkK m c t) r q).trans ?_
  refine (point_value m c t r q).trans ?_
  exact congrArg (bracket (argV1 m c) (argV2 m c) (argI m c) (argJ m c) (argK m c) (argC m c)) (emb5_apply t r q).symm

/-- Point t writes back, to the second result, the rows of the entrywise product. -/
theorem flushed6_eq (c : Dev nD) (t : Fin cfg0.N) :
    (dats m 0 c).flushed 6 t = ((cfg0.win 6).blk t).view.read (Elt Ideal) (sym (m ((c : Thread nD τ).loc main_arg0)) (m ((c : Thread nD τ).loc main_arg1))) := by
  rw [Value.flushed6_A, piece6]
  funext y
  obtain ⟨r, q, rfl⟩ : ∃ (r : Fin 1024) (q : Fin 248), y = ix2 r q := ⟨y 0, y 1, eq_ix2 (n0 := 1024) (n1 := 248) y⟩
  refine (Body.pay3_apply (iblk m c 0 t) (iblk m c 1 t) r q).trans ?_
  show _ = sym (m ((c : Thread nD τ).loc main_arg0)) (m ((c : Thread nD τ).loc main_arg1)) (((cfg0.win 6).blk t).view.emb (ix2 r q))
  rw [emb6_apply, blk0_apply, blk1_apply, V_main_arg0, V_main_arg1]
  rfl

/-- Point t writes back, to the third result, the row sums of the entrywise product. -/
theorem flushed7_eq (c : Dev nD) (t : Fin cfg0.N) :
    (dats m 0 c).flushed 7 t = ((cfg0.win 7).blk t).view.read (Elt Ideal) (rowDot (m ((c : Thread nD τ).loc main_arg0)) (m ((c : Thread nD τ).loc main_arg1))) := by
  rw [Value.flushed7_A, piece7]
  funext y
  obtain ⟨r, z, rfl⟩ : ∃ (r : Fin 1024) (z : Fin 1), y = ix2 r z := ⟨y 0, y 1, eq_ix2 (n0 := 1024) (n1 := 1) y⟩
  obtain rfl : z = 0 := Subsingleton.elim _ _
  refine (Body.pay4_apply (iblk m c 0 t) (iblk m c 1 t) r).trans ?_
  show _ = rowDot (m ((c : Thread nD τ).loc main_arg0)) (m ((c : Thread nD τ).loc main_arg1)) (((cfg0.win 7).blk t).view.emb (ix2 r (0 : Fin 1)))
  rw [emb7_apply]
  show _ = ∑ d : Fin 248, argV1 m c (ix2 (rowAt t r) d) * argV2 m c (ix2 (rowAt t r) d)
  refine Finset.sum_congr rfl fun d _ => ?_
  rw [blk0_apply, blk1_apply, V_main_arg0, V_main_arg1]

/-! ## The blocks tile the arrays -/

/-- Row i of a [65536 × k] result lies in the block of point i / 1024. -/
theorem pointOf_lt (i : Fin 65536) : i.val / 1024 < cfg0.N := by have := i.isLt; have h := points; omega

/-- An index is in point t's block of result 1 iff each coordinate is in the block's range on its axis. -/
theorem mem_blk5 (t : Fin cfg0.N) (i : S65536x248.Idx) :
    i ∈ ((cfg0.win 5).blk t).view.set ↔ ∀ a : Fin 2, win0_5.index t a * S1024x248.size a ≤ (i a).val ∧ (i a).val < win0_5.index t a * S1024x248.size a + S1024x248.size a := by
  show i ∈ ((View.whole main_v23_0).slice (win0_5.rect t)).set ↔ _
  rw [View.set_slice_whole, Rect.mem_set_unit]
  exact Iff.rfl

theorem cover5 (i : S65536x248.Idx) : ∃ t : Fin cfg0.N, (cfg0.win 5).flush t = true ∧ i ∈ ((cfg0.win 5).blk t).view.set := by
  have h0 : (i 0).val < 65536 := (i 0).isLt
  have h1 : (i 1).val < 248 := (i 1).isLt
  obtain ⟨t, ht⟩ : ∃ t : Fin cfg0.N, t.val = (i 0).val / 1024 := ⟨⟨(i 0).val / 1024, pointOf_lt (i 0)⟩, rfl⟩
  refine ⟨t, flush0_5 t, ?_⟩
  rw [mem_blk5]
  obtain ⟨-, -, -, -, -, -, -, -, -, -, e0, e1, -⟩ := idx_facts t
  intro a
  match a with
  | ⟨0, _⟩ =>
    show win0_5.index t (0 : Fin 2) * 1024 ≤ (i 0).val ∧ (i 0).val < win0_5.index t (0 : Fin 2) * 1024 + 1024
    omega
  | ⟨1, _⟩ =>
    show win0_5.index t (1 : Fin 2) * 248 ≤ (i 1).val ∧ (i 1).val < win0_5.index t (1 : Fin 2) * 248 + 248
    omega

/-- An index is in point t's block of result 2 iff each coordinate is in the block's range on its axis. -/
theorem mem_blk6 (t : Fin cfg0.N) (i : S65536x248.Idx) :
    i ∈ ((cfg0.win 6).blk t).view.set ↔ ∀ a : Fin 2, win0_6.index t a * S1024x248.size a ≤ (i a).val ∧ (i a).val < win0_6.index t a * S1024x248.size a + S1024x248.size a := by
  show i ∈ ((View.whole main_v23_1).slice (win0_6.rect t)).set ↔ _
  rw [View.set_slice_whole, Rect.mem_set_unit]
  exact Iff.rfl

theorem cover6 (i : S65536x248.Idx) : ∃ t : Fin cfg0.N, (cfg0.win 6).flush t = true ∧ i ∈ ((cfg0.win 6).blk t).view.set := by
  have h0 : (i 0).val < 65536 := (i 0).isLt
  have h1 : (i 1).val < 248 := (i 1).isLt
  obtain ⟨t, ht⟩ : ∃ t : Fin cfg0.N, t.val = (i 0).val / 1024 := ⟨⟨(i 0).val / 1024, pointOf_lt (i 0)⟩, rfl⟩
  refine ⟨t, flush0_6 t, ?_⟩
  rw [mem_blk6]
  obtain ⟨-, -, -, -, -, -, -, -, -, -, -, -, e0, e1, -⟩ := idx_facts t
  intro a
  match a with
  | ⟨0, _⟩ =>
    show win0_6.index t (0 : Fin 2) * 1024 ≤ (i 0).val ∧ (i 0).val < win0_6.index t (0 : Fin 2) * 1024 + 1024
    omega
  | ⟨1, _⟩ =>
    show win0_6.index t (1 : Fin 2) * 248 ≤ (i 1).val ∧ (i 1).val < win0_6.index t (1 : Fin 2) * 248 + 248
    omega

/-- An index is in point t's block of result 3 iff each coordinate is in the block's range on its axis. -/
theorem mem_blk7 (t : Fin cfg0.N) (i : S65536x1.Idx) :
    i ∈ ((cfg0.win 7).blk t).view.set ↔ ∀ a : Fin 2, win0_7.index t a * S1024x1.size a ≤ (i a).val ∧ (i a).val < win0_7.index t a * S1024x1.size a + S1024x1.size a := by
  show i ∈ ((View.whole main_v23_2).slice (win0_7.rect t)).set ↔ _
  rw [View.set_slice_whole, Rect.mem_set_unit]
  exact Iff.rfl

theorem cover7 (i : S65536x1.Idx) : ∃ t : Fin cfg0.N, (cfg0.win 7).flush t = true ∧ i ∈ ((cfg0.win 7).blk t).view.set := by
  have h0 : (i 0).val < 65536 := (i 0).isLt
  have h1 : (i 1).val < 1 := (i 1).isLt
  obtain ⟨t, ht⟩ : ∃ t : Fin cfg0.N, t.val = (i 0).val / 1024 := ⟨⟨(i 0).val / 1024, pointOf_lt (i 0)⟩, rfl⟩
  refine ⟨t, flush0_7 t, ?_⟩
  rw [mem_blk7]
  obtain ⟨-, -, -, -, -, -, -, -, -, -, -, -, -, -, e0, e1⟩ := idx_facts t
  intro a
  match a with
  | ⟨0, _⟩ =>
    show win0_7.index t (0 : Fin 2) * 1024 ≤ (i 0).val ∧ (i 0).val < win0_7.index t (0 : Fin 2) * 1024 + 1024
    omega
  | ⟨1, _⟩ =>
    show win0_7.index t (1 : Fin 2) * 1 ≤ (i 1).val ∧ (i 1).val < win0_7.index t (1 : Fin 2) * 1 + 1
    omega

/-! ## The result arrays -/

theorem final5 (c : Dev nD) : (dats m 0 c).arrAt 5 cfg0.N = bracket (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 5 _ (fun t _ => flushed5_eq m c t) cover5

theorem final6 (c : Dev nD) : (dats m 0 c).arrAt 6 cfg0.N = sym (m ((c : Thread nD τ).loc main_arg0)) (m ((c : Thread nD τ).loc main_arg1)) :=
  (dats m 0 c).arrAt_eq_of_cover 6 _ (fun t _ => flushed6_eq m c t) cover6

theorem final7 (c : Dev nD) : (dats m 0 c).arrAt 7 cfg0.N = rowDot (m ((c : Thread nD τ).loc main_arg0)) (m ((c : Thread nD τ).loc main_arg1)) :=
  (dats m 0 c).arrAt_eq_of_cover 7 _ (fun t _ => flushed7_eq m c t) cover7

/-- THE KERNEL'S RUN, READ: every weakly fair execution ends with the three results at the specification's functions
    of the arguments, and the arguments as they were. -/
theorem run : θ_run defs (onTc (τ := τ) (main (F := Ideal))) ⟨m, fun _ => 0, ρ⟩ fun r => ∀ c : Dev nD,
      r.2.mem ((c : Thread nD τ).loc main_v23_0) = bracket (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v23_1) = sym (m ((c : Thread nD τ).loc main_arg0)) (m ((c : Thread nD τ).loc main_arg1))
      ∧ r.2.mem ((c : Thread nD τ).loc main_v23_2) = rowDot (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final5 m c), (h c).2.1.trans (final6 m c),
      (h c).2.2.1.trans (final7 m c), (h c).2.2.2⟩)
    (Value.run_blocks m ρ)

end Cert.KernelIdeal.Arrays

end
-- ==== Proof.LibColGatherScatter.lean ====
/-
  A host gather of whole columns and a host scatter-add of whole columns, each read at one element.

  `x[:, idx]` over a [B × C] table and E index words prints as a `stablehlo.gather` whose start indices are the
  [E × 1] column of the words: the table's column axis is collapsed and start-indexed, its row axis is the one offset
  axis. Result element (b, e) is the table's element (b, col), where `col` is word `e` read as a signed integer and
  clamped into [0, C − 1].

  `zeros.at[:, idx].add(upd)` prints as a `stablehlo.scatter` with an `add` body whose column axis is inserted and
  scatter-indexed and whose row axis is the one update-window axis. At the extended reals element (b, q) ends at its
  old value plus the sum of `upd (b, e)` over the entries `e` whose word reads `q` as a signed integer; an entry
  whose word leaves [0, C) lands nowhere and adds nothing.
-/
import Idealize.ShloMosaic.PureOps.Ideal
import Idealize.ShloMosaic.Lib.ValueIdx

noncomputable section

namespace Cert.ColIndex

open Idealize.ShloMosaic Idealize.ShloMosaic.ValueIdx

/-! ## The column gather -/

section Gather

variable {B C E w : Nat} (d : GatherDims ⟨2, ![B, C]⟩ ⟨2, ![E, 1]⟩ ⟨2, ![B, E]⟩)

/-- With the row axis the one offset axis, the result's one batch axis is its entry axis. -/
theorem batch_is_entry (hoff : d.offsetDims = [0]) (X : Fin 2) (hX : X ∈ d.batchDims) : X = 1 := by
  have hX' : X ∈ (⟨2, ![B, E]⟩ : Shape).kept [0] := by rw [← hoff]; exact hX
  simp [Shape.kept, List.mem_filter] at hX'
  omega

/-- The start-index table is read, for result element (b, e), at row `e` of its one column. -/
theorem siIdx_entry (hoff : d.offsetDims = [0]) (hsim : d.startIndexMap = [1]) (hivd : d.indexVectorDim = 1)
    (b : Fin B) (e : Fin E) (k : Fin d.startIndexMap.length) :
    d.siIdx (ix2 b e) k = ix2 e (0 : Fin 1) := by
  funext a
  match a with
  | ⟨0, _⟩ =>
    unfold GatherDims.siIdx
    rw [dif_neg (by rw [hivd]; simp)]
    unfold GatherDims.siCoord
    apply Fin.ext
    simp only [Fin.val_cast]
    have he : ∀ X : Fin 2, X ∈ d.batchDims → ((ix2 b e : (⟨2, ![B, E]⟩ : Shape).Idx) X).val = e.val := fun X hX => by
      rw [batch_is_entry d hoff X hX]
    exact he _ (List.getElem_mem _)
  | ⟨1, _⟩ =>
    unfold GatherDims.siIdx
    rw [dif_pos (by rw [hivd])]
    apply Fin.ext
    have hlen : d.startIndexMap.length = 1 := by rw [hsim]; rfl
    have hk := k.isLt
    show k.val = 0
    omega

/-- Result element (b, e) of a column gather is the table's element (b, col): `col` is index word `e` read signed
    and clamped into [0, C − 1]. -/
theorem gather_cols {α : Type} (hoff : d.offsetDims = [0]) (hcoll : d.collapsedSliceDims = [1])
    (hob : d.operandBatchingDims = []) (hsim : d.startIndexMap = [1]) (hivd : d.indexVectorDim = 1)
    (x : (⟨2, ![B, C]⟩ : Shape).Idx → α) (idx : IVec ⟨2, ![E, 1]⟩ w) (b : Fin B) (e : Fin E) (hC : 0 < C) :
    Host.gather d x idx (ix2 b e) = x (ix2 b ⟨min (idx (ix2 e (0 : Fin 1))).toInt.toNat (C - 1), by omega⟩) := by
  unfold Host.gather
  congr 1
  funext a
  apply Fin.ext
  have hnb : ∀ a : Fin 2, a ∉ d.operandBatchingDims := fun a => by rw [hob]; exact List.not_mem_nil
  match a with
  | ⟨0, _⟩ =>
    -- the row axis is kept and not start-indexed: the result's row coordinate, through the offset axis
    have hk : (0 : Fin 2) ∈ d.sKept := by rw [GatherDims.mem_sKept, hcoll, hob]; simp
    have hm : (0 : Fin 2) ∉ d.startIndexMap := by rw [hsim]; simp
    show d.start (ix2 b e) idx 0 + d.batchCoord (ix2 b e) 0 + d.offCoord (ix2 b e) 0 = b.val
    rw [GatherDims.batchCoord_eq_zero _ _ _ (hnb _), Nat.add_zero]
    unfold GatherDims.start GatherDims.offCoord
    rw [dif_neg hm, dif_pos hk, Nat.zero_add]
    have hX : ∀ X : Fin 2, X ∈ d.offsetDims → ((ix2 b e : (⟨2, ![B, E]⟩ : Shape).Idx) X).val = b.val := by
      intro X hX
      rw [hoff] at hX
      obtain rfl := List.mem_singleton.1 hX
      rfl
    exact hX _ (List.getElem_mem _)
  | ⟨1, _⟩ =>
    -- the column axis is collapsed and start-indexed: the clamped word alone
    have hk : (1 : Fin 2) ∉ d.sKept := by rw [GatherDims.mem_sKept, hcoll]; simp
    have hm : (1 : Fin 2) ∈ d.startIndexMap := by rw [hsim]; exact List.mem_singleton.mpr rfl
    have hsl : d.sliceSizes 1 = 1 := d.slice_collapsed 1 (by rw [hcoll]; exact List.mem_singleton.mpr rfl)
    show d.start (ix2 b e) idx 1 + d.batchCoord (ix2 b e) 1 + d.offCoord (ix2 b e) 1
      = min (idx (ix2 e (0 : Fin 1))).toInt.toNat (C - 1)
    rw [GatherDims.batchCoord_eq_zero _ _ _ (hnb _), GatherDims.offCoord_eq_zero _ _ _ hk]
    simp only [Nat.add_zero]
    unfold GatherDims.start
    rw [dif_pos hm, siIdx_entry d hoff hsim hivd]
    show min _ (C - d.sliceSizes 1) = _
    rw [hsl]

end Gather

/-! ## The column scatter-add -/

section Scatter

variable {B C E w : Nat} (d : ScatterDims ⟨2, ![B, C]⟩ ⟨2, ![E, 1]⟩ ⟨2, ![B, E]⟩)

/-- With the row axis the one update-window axis, the updates' one scatter axis is their entry axis. -/
theorem scatter_is_entry (huw : d.updateWindowDims = [0]) (X : Fin 2) (hX : X ∈ d.uScatter) : X = 1 := by
  have hX' : X ∈ (⟨2, ![B, E]⟩ : Shape).kept [0] := by rw [← huw]; exact hX
  simp [Shape.kept, List.mem_filter] at hX'
  omega

/-- Update (b, e) starts, on the column axis, at index word `e` read signed (not clamped). -/
theorem start_col (huw : d.updateWindowDims = [0]) (hsd : d.scatterDimsToOperandDims = [1]) (hivd : d.indexVectorDim = 1)
    (idx : IVec ⟨2, ![E, 1]⟩ w) (j : (⟨2, ![B, E]⟩ : Shape).Idx) :
    d.start j idx 1 = (idx (ix2 (j 1) (0 : Fin 1))).toInt := by
  have hm : (1 : Fin 2) ∈ d.scatterDimsToOperandDims := by rw [hsd]; exact List.mem_singleton.mpr rfl
  unfold ScatterDims.start
  rw [dif_pos hm]
  congr 2
  funext a
  match a with
  | ⟨0, _⟩ =>
    unfold ScatterDims.siIdx
    rw [dif_neg (by rw [hivd]; simp)]
    unfold ScatterDims.siCoord
    apply Fin.ext
    simp only [Fin.val_cast]
    have he : ∀ X : Fin 2, X ∈ d.uScatter → (j X).val = (j 1).val := fun X hX => by
      rw [scatter_is_entry d huw X hX]
    exact he _ (List.getElem_mem _)
  | ⟨1, _⟩ =>
    unfold ScatterDims.siIdx
    rw [dif_pos (by rw [hivd])]
    apply Fin.ext
    show List.idxOf (1 : Fin 2) d.scatterDimsToOperandDims = 0
    rw [hsd]; simp

/-- The column axis is inserted: no window coordinate on it. -/
theorem window_col (hiw : d.insertedWindowDims = [1]) (j : (⟨2, ![B, E]⟩ : Shape).Idx) : d.window j 1 = 0 := by
  have hk : (1 : Fin 2) ∉ d.sKept := by simp [ScatterDims.sKept, Shape.kept, hiw]
  unfold ScatterDims.window
  rw [dif_neg hk]

/-- The row axis is not scatter-indexed: it starts at 0. -/
theorem start_row (hsd : d.scatterDimsToOperandDims = [1]) (idx : IVec ⟨2, ![E, 1]⟩ w) (j : (⟨2, ![B, E]⟩ : Shape).Idx) :
    d.start j idx 0 = 0 := by
  have hm : (0 : Fin 2) ∉ d.scatterDimsToOperandDims := by rw [hsd]; simp
  unfold ScatterDims.start
  rw [dif_neg hm]

/-- The row axis is the window axis: its window coordinate is the update's row. -/
theorem window_row (huw : d.updateWindowDims = [0]) (hiw : d.insertedWindowDims = [1]) (j : (⟨2, ![B, E]⟩ : Shape).Idx) :
    d.window j 0 = (j 0).val := by
  have hk : (0 : Fin 2) ∈ d.sKept := by simp [ScatterDims.sKept, Shape.kept, hiw]
  unfold ScatterDims.window
  rw [dif_pos hk]
  have hX : ∀ X : Fin 2, X ∈ d.updateWindowDims → (j X).val = (j 0).val := fun X hX => by
    rw [huw] at hX
    rw [List.mem_singleton.1 hX]
  exact hX _ (List.getElem_mem _)

/-- Update (b', e) lands on element (b, q) exactly when b' = b and word `e` reads `q` as a signed integer. -/
theorem lands_iff (huw : d.updateWindowDims = [0]) (hiw : d.insertedWindowDims = [1])
    (hsd : d.scatterDimsToOperandDims = [1]) (hivd : d.indexVectorDim = 1)
    (idx : IVec ⟨2, ![E, 1]⟩ w) (b : Fin B) (q : Fin C) (j : (⟨2, ![B, E]⟩ : Shape).Idx) :
    d.resultIdx? j idx = some (ix2 b q) ↔ j 0 = b ∧ (idx (ix2 (j 1) (0 : Fin 1))).toInt = (q.val : ℤ) := by
  have s0 := start_row d hsd idx j
  have w0 := window_row d huw hiw j
  have s1 := start_col d huw hsd hivd idx j
  have w1 := window_col d hiw j
  unfold ScatterDims.resultIdx?
  constructor
  · intro h
    split at h
    · rename_i hr
      have hf := Option.some.inj h
      have h0 : (d.start j idx 0 + d.window j 0).toNat = b.val := congrArg Fin.val (congrFun hf 0)
      have h1 : (d.start j idx 1 + d.window j 1).toNat = q.val := congrArg Fin.val (congrFun hf 1)
      have r1 := (hr 1).1
      rw [s0, w0] at h0
      rw [s1, w1] at h1 r1
      exact ⟨Fin.ext (by omega), by omega⟩
    · exact absurd h (by simp)
  · rintro ⟨h0, h1⟩
    have hr : ∀ a, 0 ≤ d.start j idx a + d.window j a ∧
        d.start j idx a + d.window j a < (⟨2, ![B, C]⟩ : Shape).size a := by
      intro a
      match a with
      | ⟨0, _⟩ =>
        show 0 ≤ d.start j idx 0 + d.window j 0 ∧ d.start j idx 0 + d.window j 0 < (B : ℤ)
        rw [s0, w0]
        have := idx2_lt0 j
        omega
      | ⟨1, _⟩ =>
        show 0 ≤ d.start j idx 1 + d.window j 1 ∧ d.start j idx 1 + d.window j 1 < (C : ℤ)
        rw [s1, w1, h1]
        have := q.isLt
        omega
    rw [dif_pos hr]
    congr 1
    funext a
    match a with
    | ⟨0, _⟩ =>
      apply Fin.ext
      show (d.start j idx 0 + d.window j 0).toNat = b.val
      rw [s0, w0, ← h0]
      omega
    | ⟨1, _⟩ =>
      apply Fin.ext
      show (d.start j idx 1 + d.window j 1).toNat = q.val
      rw [s1, w1, h1]
      omega

/-- Element (b, q) after a column scatter-add at the extended reals: the old value plus the updates, in row `b`, of
    the entries whose index word reads `q`. -/
theorem scatterAdd_cols (huw : d.updateWindowDims = [0]) (hiw : d.insertedWindowDims = [1])
    (hsd : d.scatterDimsToOperandDims = [1]) (hivd : d.indexVectorDim = 1)
    (x : (⟨2, ![B, C]⟩ : Shape).Idx → EReal) (idx : IVec ⟨2, ![E, 1]⟩ w) (upd : (⟨2, ![B, E]⟩ : Shape).Idx → EReal)
    (b : Fin B) (q : Fin C) :
    (Host.scatterAdd (F := Ideal) (φ := .f32) d x idx upd : (⟨2, ![B, C]⟩ : Shape).Idx → EReal) (ix2 b q)
      = x (ix2 b q) + ∑ e ∈ Finset.univ.filter (fun e : Fin E => (idx (ix2 e (0 : Fin 1))).toInt = (q.val : ℤ)), upd (ix2 b e) := by
  have key := lands_iff d huw hiw hsd hivd idx b q
  show Ideal.hostScatterAdd d x idx upd (ix2 b q) = _
  unfold Ideal.hostScatterAdd
  congr 1
  -- the updates that land on (b, q), listed by their entry
  refine Finset.sum_bij' (fun j _ => (j 1 : Fin E)) (fun e _ => ix2 b e) ?_ ?_ ?_ ?_ ?_
  · intro j hj
    exact Finset.mem_filter.2 ⟨Finset.mem_univ _, ((key j).1 (Finset.mem_filter.1 hj).2).2⟩
  · intro e he
    exact Finset.mem_filter.2 ⟨Finset.mem_univ _, (key _).2 ⟨rfl, (Finset.mem_filter.1 he).2⟩⟩
  · intro j hj
    have hb := ((key j).1 (Finset.mem_filter.1 hj).2).1
    rw [← hb]
    exact (eq_ix2 j).symm
  · intro e _
    rfl
  · intro j hj
    have hb := ((key j).1 (Finset.mem_filter.1 hj).2).1
    rw [← hb]
    exact congrArg upd (eq_ix2 j)

end Scatter

end Cert.ColIndex

end
-- ==== Proof.RefValue.lean ====
/-
  The reference's three results are the specification's, under the index ranges.
-/
import proofs.«416655_j3977139716373_3_alg».proof.Proof.Gen.ReferenceIdeal.Read
import proofs.«416655_j3977139716373_3_alg».proof.Proof.LibColGatherScatter
import proofs.«416655_j3977139716373_3_alg».proof.Proof.Spec
import Idealize.ShloMosaic.Lib.StableHlo.Predicate

noncomputable section

namespace Cert.ReferenceIdeal.RefValue

open Cert.ReferenceIdeal Cert.ReferenceIdeal.Gen Idealize.ShloMosaic Idealize.ShloMosaic.ValueIdx
open Cert.Bracket (hot hot_self hot_of_ne)

/-! ## Words -/

/-- A word reads the number q (below 2³¹) as a signed integer exactly when it is q's word. -/
theorem toInt_eq_iff (w : BitVec 32) (q : ℕ) (hq : q < 2 ^ 31) : w.toInt = (q : ℤ) ↔ w = BitVec.ofNat 32 q := by
  constructor
  · intro h
    apply BitVec.eq_of_toInt_eq
    rw [h, StableHlo.Predicate.toInt_ofNat_small q hq]
  · rintro rfl
    exact StableHlo.Predicate.toInt_ofNat_small q hq

/-- The index normalisation "w + 248 where w is negative, else w" keeps a non-negative word. -/
theorem norm_word (w a : BitVec 32) (h : 0 ≤ w.toInt) : Scalar.select (IntOp.cmpi .slt w 0#32) a w = w := by
  have hs : w.slt 0#32 = false := by
    show decide (w.toInt < (0#32 : BitVec 32).toInt) = false
    have h0 : (0#32 : BitVec 32).toInt = 0 := by decide
    rw [h0]
    exact decide_eq_false (by omega)
  have hc : IntOp.cmpi .slt w 0#32 = 0#1 := by
    unfold IntOp.cmpi
    show BitVec.ofBool (w.slt 0#32) = 0#1
    rw [hs]
    rfl
  rw [hc]
  exact select_zero _ _

/-- A sum against the one-hot row of a column number's word keeps the one term at that column. -/
theorem sum_hot_left (f : Fin 248 → EReal) (w : BitVec 32) (h0 : 0 ≤ w.toInt) (h1 : w.toInt < 248) :
    ∑ d : Fin 248, f d * hot (BitVec.ofNat 32 d.val) w = f ⟨w.toInt.toNat, by omega⟩ := by
  rw [Finset.sum_eq_single (⟨w.toInt.toNat, by omega⟩ : Fin 248)]
  · have hw : BitVec.ofNat 32 w.toInt.toNat = w := ((toInt_eq_iff w _ (by omega)).1 (by omega)).symm
    show f _ * hot (BitVec.ofNat 32 w.toInt.toNat) w = _
    rw [hw, hot_self, mul_one]
  · intro d _ hd
    rw [hot_of_ne, mul_zero]
    intro h
    apply hd
    apply Fin.ext
    have hd' := (toInt_eq_iff w d.val (by have := d.isLt; omega)).2 h.symm
    show d.val = w.toInt.toNat
    omega
  · intro h
    exact absurd (Finset.mem_univ _) h

/-! ## The normalised index columns -/

/-- Under a non-negative word the normalised index column reads the word itself. -/
theorem col_read (x : (⟨S4096, .i32⟩ : BufTy).Contents (Elt Ideal)) (e : Fin 4096) (h : 0 ≤ (x (ix1 e)).toInt) :
    Read.val_main_v5 (F := Ideal) x (ix2 e (0 : Fin 1)) = x (ix1 e) := by
  rw [Read.val_main_v5_apply]
  have hi : Read.idx_main_v5 (ix2 e (0 : Fin 1)) = ix1 e := by
    funext a
    match a with
    | ⟨0, _⟩ => rfl
  rw [hi, Read.val_main_v4_apply, Read.val_main_v1_apply, Read.val_main_v0_apply, Read.val_main_c_apply]
  exact norm_word _ _ h

/-! ## The gathers -/

/-- A gathered column: element (b, e) is the table's element in row b at the column word e names. -/
theorem gather_read (v : (⟨S65536x248, .f32⟩ : BufTy).Contents (Elt Ideal)) (x : (⟨S4096, .i32⟩ : BufTy).Contents (Elt Ideal))
    (b : Fin 65536) (e : Fin 4096) (h0 : 0 ≤ (x (ix1 e)).toInt) (h1 : (x (ix1 e)).toInt < 248) :
    Read.val_main_v6 (F := Ideal) v x (ix2 b e) = v (ix2 b ⟨(x (ix1 e)).toInt.toNat, by omega⟩) := by
  unfold Read.val_main_v6
  refine (Cert.ColIndex.gather_cols _ rfl rfl rfl rfl rfl v (Read.val_main_v5 (F := Ideal) x) b e (by decide)).trans ?_
  refine congrArg (fun c => v (ix2 b c)) (Fin.ext ?_)
  show min (Read.val_main_v5 (F := Ideal) x (ix2 e (0 : Fin 1))).toInt.toNat (248 - 1) = (x (ix1 e)).toInt.toNat
  rw [col_read x e h0]
  omega

/-- The update array: element (b, e) is the product of the two selected values and coefficient e. -/
theorem upd_read (x0 x1 : (⟨S65536x248, .f32⟩ : BufTy).Contents (Elt Ideal)) (x2 x3 : (⟨S4096, .i32⟩ : BufTy).Contents (Elt Ideal))
    (x5 : (⟨S4096, .f32⟩ : BufTy).Contents (Elt Ideal)) (b : Fin 65536) (e : Fin 4096)
    (hI0 : 0 ≤ (x2 (ix1 e)).toInt) (hI1 : (x2 (ix1 e)).toInt < 248)
    (hJ0 : 0 ≤ (x3 (ix1 e)).toInt) (hJ1 : (x3 (ix1 e)).toInt < 248) :
    Read.val_main_v17 (F := Ideal) x0 x1 x2 x3 x5 (ix2 b e)
      = (x0 (ix2 b ⟨(x2 (ix1 e)).toInt.toNat, by omega⟩) * x1 (ix2 b ⟨(x3 (ix1 e)).toInt.toNat, by omega⟩)) * x5 (ix1 e) := by
  rw [Read.val_main_v17_apply, Read.val_main_v14_apply, Read.val_main_v16_apply, Read.val_main_v15_apply]
  have h13 : Read.val_main_v13 (F := Ideal) x1 x3 = Read.val_main_v6 (F := Ideal) x1 x3 := rfl
  rw [h13, gather_read x0 x2 b e hI0 hI1, gather_read x1 x3 b e hJ0 hJ1]
  have hi : Read.idx_main_v15 (Read.idx_main_v16 (ix2 b e)) = ix1 e := by
    funext a
    match a with
    | ⟨0, _⟩ => rfl
  rw [hi]
  rfl

/-! ## The scatter-add -/

/-- The scatter-add into the zero array: element (b, q) is the sum of the updates (b, e) against the one-hot of
    "word e of K is column q's number". -/
theorem scatter_read (x0 x1 : (⟨S65536x248, .f32⟩ : BufTy).Contents (Elt Ideal)) (x2 x3 x4 : (⟨S4096, .i32⟩ : BufTy).Contents (Elt Ideal))
    (x5 : (⟨S4096, .f32⟩ : BufTy).Contents (Elt Ideal)) (hK : ∀ n : Fin 4096, 0 ≤ (x4 (ix1 n)).toInt)
    (b : Fin 65536) (q : Fin 248) :
    Read.val_main_v25 (F := Ideal) x0 x1 x2 x3 x4 x5 (ix2 b q)
      = ∑ e : Fin 4096, Read.val_main_v17 (F := Ideal) x0 x1 x2 x3 x5 (ix2 b e) * hot (x4 (ix1 e)) (BitVec.ofNat 32 q.val) := by
  unfold Read.val_main_v25
  refine (Cert.ColIndex.scatterAdd_cols _ rfl rfl rfl rfl (Read.val_main_v18 (F := Ideal)) (Read.val_main_v24 (F := Ideal) x4)
    (Read.val_main_v17 (F := Ideal) x0 x1 x2 x3 x5) b q).trans ?_
  have hz : Read.val_main_v18 (F := Ideal) (ix2 b q) = 0 := by
    rw [Read.val_main_v18_apply, Read.val_main_cst_apply]
    exact Ideal.ofBits_zero_f32
  rw [hz, zero_add, Finset.sum_filter]
  refine Finset.sum_congr rfl fun e _ => ?_
  have h24 : Read.val_main_v24 (F := Ideal) x4 = Read.val_main_v5 (F := Ideal) x4 := rfl
  rw [h24, col_read x4 e (hK e)]
  have hq : q.val < 2 ^ 31 := by have := q.isLt; omega
  by_cases h : (x4 (ix1 e)).toInt = (q.val : ℤ)
  · rw [if_pos h, (toInt_eq_iff _ _ hq).1 h, hot_self, mul_one]
  · rw [if_neg h, hot_of_ne (fun h' => h ((toInt_eq_iff _ _ hq).2 h')), mul_zero]

/-- The specification's first result at (b, q), its tables read at their entries. -/
theorem bracket_apply (v1 v2 : Cert.Bracket.SBD.Idx → EReal) (I J K : Cert.Bracket.SN.Idx → BitVec 32) (C : Cert.Bracket.SN.Idx → EReal)
    (b : Fin 65536) (q : Fin 248) :
    Cert.Bracket.bracket v1 v2 I J K C (ix2 b q)
      = ∑ n : Fin 4096, ((∑ d : Fin 248, v1 (ix2 b d) * hot (BitVec.ofNat 32 d.val) (I (ix1 n)))
          * (∑ d : Fin 248, v2 (ix2 b d) * hot (BitVec.ofNat 32 d.val) (J (ix1 n))))
          * (hot (K (ix1 n)) (BitVec.ofNat 32 q.val) * C (ix1 n)) := rfl

/-- The reference's first result is the contraction through the one-hot tables, when every word of I and J is a
    column number and every word of K is non-negative. -/
theorem ref_bracket (x0 x1 : (⟨S65536x248, .f32⟩ : BufTy).Contents (Elt Ideal)) (x2 x3 x4 : (⟨S4096, .i32⟩ : BufTy).Contents (Elt Ideal))
    (x5 : (⟨S4096, .f32⟩ : BufTy).Contents (Elt Ideal))
    (hI : ∀ n : Fin 4096, 0 ≤ (x2 (ix1 n)).toInt ∧ (x2 (ix1 n)).toInt < 248)
    (hJ : ∀ n : Fin 4096, 0 ≤ (x3 (ix1 n)).toInt ∧ (x3 (ix1 n)).toInt < 248)
    (hK : ∀ n : Fin 4096, 0 ≤ (x4 (ix1 n)).toInt) :
    Read.val_main_v25 (F := Ideal) x0 x1 x2 x3 x4 x5 = Cert.Bracket.bracket x0 x1 x2 x3 x4 x5 := by
  funext i
  obtain ⟨b, q, rfl⟩ : ∃ (b : Fin 65536) (q : Fin 248), i = ix2 b q := ⟨i 0, i 1, eq_ix2 i⟩
  rw [scatter_read x0 x1 x2 x3 x4 x5 hK b q, bracket_apply x0 x1 x2 x3 x4 x5 b q]
  refine Finset.sum_congr rfl fun n _ => ?_
  rw [sum_hot_left (fun d => x0 (ix2 b d)) _ (hI n).1 (hI n).2, sum_hot_left (fun d => x1 (ix2 b d)) _ (hJ n).1 (hJ n).2,
    upd_read x0 x1 x2 x3 x5 b n (hI n).1 (hI n).2 (hJ n).1 (hJ n).2]
  -- ((s · t) · c) · h = (s · t) · (h · c)
  rw [mul_assoc (_ * _) (x5 (ix1 n)), mul_comm (x5 (ix1 n))]

/-- The reference's second result is the entrywise product. -/
theorem ref_sym (x0 x1 : (⟨S65536x248, .f32⟩ : BufTy).Contents (Elt Ideal)) :
    Read.val_main_v26 (F := Ideal) x0 x1 = Cert.Bracket.sym x0 x1 := by
  funext i
  rw [Read.val_main_v26_apply]
  rfl

/-- The reference's third result is the row sums of the entrywise product. -/
theorem ref_rowDot (x0 x1 : (⟨S65536x248, .f32⟩ : BufTy).Contents (Elt Ideal)) :
    Read.val_main_v28 (F := Ideal) x0 x1 = Cert.Bracket.rowDot x0 x1 := by
  funext i
  obtain ⟨b, z, rfl⟩ : ∃ (b : Fin 65536) (z : Fin 1), i = ix2 b z := ⟨i 0, i 1, eq_ix2 i⟩
  rw [Read.val_main_v28_apply, Read.val_main_v27_apply, Read.val_main_cst_5_apply]
  have hz : (FloatOps.ofBits (F := Ideal) .f32 0x00000000#32 : Ideal .f32) = 0 := Ideal.ofBits_zero_f32
  rw [hz, zero_add]
  show _ = ∑ d : Fin 248, x0 (ix2 b d) * x1 (ix2 b d)
  refine Finset.sum_congr rfl fun k _ => ?_
  rw [Read.val_main_v26_apply]
  have hi : Read.idx_main_v27 (Read.idx_main_v28 (ix2 b z)) k = ix2 b k := by
    funext a
    match a with
    | ⟨0, _⟩ => rfl
    | ⟨1, _⟩ => rfl
  rw [hi]
  rfl

end Cert.ReferenceIdeal.RefValue

end
-- ==== Proof.lean ====
/-
  The kernel and its reference compute the same three arrays over the extended reals.

  The reference gathers column I n of v1 and column J n of v2 for each of 4096 entries n, multiplies them with the
  coefficient C n, and adds the product into column K n of a zero array; it also returns the entrywise product of v1
  and v2 and its row sums. The kernel never gathers or scatters: it builds three one-hot tables from the index words
  (1 where a column's number is the word) and contracts v1 and v2 through them by matrix products, 1024 entries at a
  time, on a grid of 64 row blocks.

  Both are the specification of Proof/Spec.lean. For the kernel (Proof/KernelBlocks.lean, Proof/KernelArrays.lean,
  over Proof/PayloadValue.lean and Proof/ChunkSum.lean) this holds for all index words: a matrix product into a zero
  accumulator is the plain sum over the contracted coordinate, the four chunk sums add up to the sum over all entries,
  and the 64 blocks tile the result arrays. For the reference (Proof/RefValue.lean, over
  Proof/LibColGatherScatter.lean) it holds where the index words are column numbers: a gather clamps a word that is
  not one and a scatter-add first wraps a negative word, which a one-hot table does neither of; on a word in range the
  sum against the one-hot row keeps exactly the gathered element, and a non-negative word of K lands on column q exactly
  when it is q's word. The precondition states those ranges beside the finiteness of the float inputs
  (Proof/PreDecode.lean); the finiteness itself is not used: the extended reals are a commutative monoid with zero
  under the product and a commutative monoid under the sum, and nothing more is needed.

  The idealization rewrote nothing in the kernel, so the kernel's idealized program is its own text read over the
  extended reals; the three frame claims are the generated runs.
-/
import proofs.«416655_j3977139716373_3_alg».proof.Defs
import proofs.«416655_j3977139716373_3_alg».proof.Proof.Gen.Kernel
import proofs.«416655_j3977139716373_3_alg».proof.Proof.Gen.Kernel.Skeleton
import proofs.«416655_j3977139716373_3_alg».proof.Proof.Gen.Kernel.Loops
import proofs.«416655_j3977139716373_3_alg».proof.Proof.Gen.Kernel.Launch
import proofs.«416655_j3977139716373_3_alg».proof.Proof.Gen.Kernel.Points
import proofs.«416655_j3977139716373_3_alg».proof.Proof.Gen.Kernel.Frame
import proofs.«416655_j3977139716373_3_alg».proof.Proof.Gen.KernelIdeal
import proofs.«416655_j3977139716373_3_alg».proof.Proof.Gen.KernelIdeal.Skeleton
import proofs.«416655_j3977139716373_3_alg».proof.Proof.Gen.KernelIdeal.Loops
import proofs.«416655_j3977139716373_3_alg».proof.Proof.Gen.KernelIdeal.Launch
import proofs.«416655_j3977139716373_3_alg».proof.Proof.Gen.KernelIdeal.Points
import proofs.«416655_j3977139716373_3_alg».proof.Proof.Gen.KernelIdeal.Frame
import proofs.«416655_j3977139716373_3_alg».proof.Proof.Gen.KernelIdeal.Value
import proofs.«416655_j3977139716373_3_alg».proof.Proof.Gen.ReferenceIdeal
import proofs.«416655_j3977139716373_3_alg».proof.Proof.Gen.ReferenceIdeal.Run
import proofs.«416655_j3977139716373_3_alg».proof.Proof.Gen.ReferenceIdeal.Read
import proofs.«416655_j3977139716373_3_alg».proof.Proof.Gen.Pre_finite_inputs
import proofs.«416655_j3977139716373_3_alg».proof.Proof.PreDecode
import proofs.«416655_j3977139716373_3_alg».proof.Proof.KernelArrays
import proofs.«416655_j3977139716373_3_alg».proof.Proof.RefValue
import Idealize.ShloMosaic.Adequacy
import Idealize.ShloMosaic.Init

noncomputable section

namespace Cert.Proof

open Idealize.ShloMosaic Idealize.ShloMosaic.TcCoe Idealize.SL.Sem

/-- The kernel runs and leaves its arguments as they were, read at the machine's words. -/
theorem frame_kernel : Cert.frame_Kernel := fun m ρ _ => Cert.Kernel.Gen.frame m ρ

/-- The same read over the extended reals. -/
theorem frame_kernelIdeal : Cert.frame_KernelIdeal := fun m ρ _ => Cert.KernelIdeal.Gen.frame m ρ

/-- The reference runs and leaves its arguments as they were: its run, with the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- From memories that agree on the six arguments, under the precondition, both programs end with the
    specification's three arrays of those arguments. -/
theorem algebraic : Cert.algebraic_KernelIdeal_ReferenceIdeal := by
  intro m ρ m' ρ' hpre hagree
  refine ⟨fun c => Cert.Bracket.bracket (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.Bracket.sym (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.Bracket.rowDot (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    Cert.KernelIdeal.Arrays.run m ρ, ?_⟩
  refine (θ_run Cert.ReferenceIdeal.defs _ _).mono (fun r h c => ?_) (Cert.ReferenceIdeal.Value.run (F := Ideal) m' ρ')
  obtain ⟨a0, a1, a2, a3, a4, a5⟩ := hagree c
  obtain ⟨hI, hJ, hK⟩ := Cert.Bracket.Pre.index_ranges _ _ _ _ _ _ (hpre c)
  refine ⟨(h c).1.trans ?_, (h c).2.1.trans ?_, (h c).2.2.1.trans ?_, (h c).2.2.2⟩
  · rw [a0, a1, a2, a3, a4, a5]
    exact (Cert.ReferenceIdeal.Read.val_main_v25_eq _ _ _ _ _ _).trans
      (Cert.ReferenceIdeal.RefValue.ref_bracket _ _ _ _ _ _ hI hJ hK)
  · rw [a0, a1]
    exact (Cert.ReferenceIdeal.Read.val_main_v26_eq _ _).trans (Cert.ReferenceIdeal.RefValue.ref_sym _ _)
  · rw [a0, a1]
    exact (Cert.ReferenceIdeal.Read.val_main_v28_eq _ _).trans (Cert.ReferenceIdeal.RefValue.ref_rowDot _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
